-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v43)) (v1 : (c : Dev Cert.KernelIdeal.nD) → Buf (Elt Ideal) ((c.tc : Thread Cert.KernelIdeal.nD Cert.KernelIdeal.τ).loc Cert.KernelIdeal.main_v40)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v43) = v0 c
          ∧ r.2.mem ((c.tc : Thread Cert.KernelIdeal.nD Cert.KernelIdeal.τ).loc Cert.KernelIdeal.main_v40) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v70) = v0 c
          ∧ r.2.mem ((c.tc : Thread Cert.ReferenceIdeal.nD Cert.ReferenceIdeal.τ).loc Cert.ReferenceIdeal.main_v60) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S50000x3 : Shape := ⟨2, ![50000, 3]⟩
abbrev S800000 : Shape := ⟨1, ![800000]⟩
abbrev S129x64 : Shape := ⟨2, ![129, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S128x64 : Shape := ⟨2, ![128, 64]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S50000x3 : S_.BroadcastsInDim S50000x3 (![] : Fin 0 → Fin S50000x3.rank)
  reducesTo_S50000x3_S_d0_1 : S50000x3.ReducesTo [0, 1] S_
  bcast_S_S129x64 : S_.BroadcastsInDim S129x64 (![] : Fin 0 → Fin S129x64.rank)
  reducesTo_S129x64_S_d0_1 : S129x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_
  bcast_S_S128x64 : S_.BroadcastsInDim S128x64 (![] : Fin 0 → Fin S128x64.rank)
  reducesTo_S128x64_S_d0_1 : S128x64.ReducesTo [0, 1] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg13 : FVec F S64 .f32) (main_arg14 : FVec F S64x64 .f32) (main_arg15 : FVec F S64 .f32) (main_v48 : IVec S_ 1) (main_v49 : FVec F S128x64 .f32) (main_v50 : FVec F S128x64 .f32) : IVec S_ 1 :=
  let main_v51 : IVec S128x64 1 := cmpf .olt main_v49 main_v50
  let main_c_19 : IVec S_ 1 := constantI S_ 1 1#1
  let main_v52 : IVec S_ 1 := (fun x v => Host.reduce IntOp.andi x v reducesTo_S128x64_S_d0_1 h_S_) main_v51 main_c_19
  let main_v53 : IVec S_ 1 := andi main_v48 main_v52
  let main_v54 : FVec F S64 .f32 := Host.absf main_arg13
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_v59 : FVec F S64x64 .f32 := Host.absf main_arg14
  let main_cst_22 : FVec F S_ .f32 := constant S_ .f32 0x7F800000#32
  let main_v60 : FVec F S64x64 .f32 := broadcastInDim S64x64 ![] bcast_S_S64x64 main_cst_22
  let main_v61 : IVec S64x64 1 := cmpf .olt main_v59 main_v60
  let main_c_23 : IVec S_ 1 := constantI S_ 1 1#1
  let main_v62 : IVec S_ 1 := (fun x v => Host.reduce IntOp.andi x v reducesTo_S64x64_S_d0_1 h_S_) main_v61 main_c_23
  let main_v63 : IVec S_ 1 := andi main_v58 main_v62
  let main_v64 : FVec F S64 .f32 := Host.absf main_arg15
  let main_cst_24 : FVec F S_ .f32 := constant S_ .f32 0x7F800000#32
  let main_v65 : FVec F S64 .f32 := broadcastInDim S64 ![] bcast_S_S64 main_cst_24
  let main_v66 : IVec S64 1 := cmpf .olt main_v64 main_v65
  let main_c_25 : IVec S_ 1 := constantI S_ 1 1#1
  let main_v67 : IVec S_ 1 := (fun x v => Host.reduce IntOp.andi x v reducesTo_S64_S_d0 h_S_) main_v66 main_c_25
  fn_part4 (F := F) main_v63 main_v67

def fn_part2 {F : FTy → Type} [FloatOps F] (main_arg9 : FVec F S64 .f32) (main_arg10 : FVec F S64x1 .f32) (main_arg11 : FVec F S1 .f32) (main_arg12 : FVec F S128x64 .f32) (main_arg13 : FVec F S64 .f32) (main_arg14 : FVec F S64x64 .f32) (main_arg15 : FVec F S64 .f32) (main_v33 : IVec S_ 1) : IVec S_ 1 :=
  let main_v34 : FVec F S64 .f32 := Host.absf main_arg9
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64x1 .f32 := Host.absf main_arg10
  let main_cst_14 : FVec F S_ .f32 := constant S_ .f32 0x7F800000#32
  let main_v40 : FVec F S64x1 .f32 := broadcastInDim S64x1 ![] bcast_S_S64x1 main_cst_14
  let main_v41 : IVec S64x1 1 := cmpf .olt main_v39 main_v40
  let main_c_15 : IVec S_ 1 := constantI S_ 1 1#1
  let main_v42 : IVec S_ 1 := (fun x v => Host.reduce IntOp.andi x v reducesTo_S64x1_S_d0_1 h_S_) main_v41 main_c_15
  let main_v43 : IVec S_ 1 := andi main_v38 main_v42
  let main_v44 : FVec F S1 .f32 := Host.absf main_arg11
  let main_cst_16 : FVec F S_ .f32 := constant S_ .f32 0x7F800000#32
  let main_v45 : FVec F S1 .f32 := broadcastInDim S1 ![] bcast_S_S1 main_cst_16
  let main_v46 : IVec S1 1 := cmpf .olt main_v44 main_v45
  let main_c_17 : IVec S_ 1 := constantI S_ 1 1#1
  let main_v47 : IVec S_ 1 := (fun x v => Host.reduce IntOp.andi x v reducesTo_S1_S_d0 h_S_) main_v46 main_c_17
  let main_v48 : IVec S_ 1 := andi main_v43 main_v47
  let main_v49 : FVec F S128x64 .f32 := Host.absf main_arg12
  let main_cst_18 : FVec F S_ .f32 := constant S_ .f32 0x7F800000#32
  let main_v50 : FVec F S128x64 .f32 := broadcastInDim S128x64 ![] bcast_S_S128x64 main_cst_18
  fn_part3 (F := F) main_arg13 main_arg14 main_arg15 main_v48 main_v49 main_v50

def fn_part1 {F : FTy → Type} [FloatOps F] (main_arg6 : FVec F S64x64 .f32) (main_arg7 : FVec F S64 .f32) (main_arg8 : FVec F S64x64 .f32) (main_arg9 : FVec F S64 .f32) (main_arg10 : FVec F S64x1 .f32) (main_arg11 : FVec F S1 .f32) (main_arg12 : FVec F S128x64 .f32) (main_arg13 : FVec F S64 .f32) (main_arg14 : FVec F S64x64 .f32) (main_arg15 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg6
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg7
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x64 .f32 := Host.absf main_arg8
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg9 main_arg10 main_arg11 main_arg12 main_arg13 main_arg14 main_arg15 main_v33

def fn {F : FTy → Type} [FloatOps F] (main_arg0 : FVec F S50000x64 .f32) (main_arg1 : FVec F S50000x3 .f32) (main_arg2 : IVec S800000 32) (main_arg3 : IVec S800000 32) (main_arg4 : FVec F S129x64 .f32) (main_arg5 : FVec F S64 .f32) (main_arg6 : FVec F S64x64 .f32) (main_arg7 : FVec F S64 .f32) (main_arg8 : FVec F S64x64 .f32) (main_arg9 : FVec F S64 .f32) (main_arg10 : FVec F S64x1 .f32) (main_arg11 : FVec F S1 .f32) (main_arg12 : FVec F S128x64 .f32) (main_arg13 : FVec F S64 .f32) (main_arg14 : FVec F S64x64 .f32) (main_arg15 : FVec F S64 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S50000x3 .f32 := Host.absf main_arg1
  let main_cst_0 : FVec F S_ .f32 := constant S_ .f32 0x7F800000#32
  let main_v5 : FVec F S50000x3 .f32 := broadcastInDim S50000x3 ![] bcast_S_S50000x3 main_cst_0
  let main_v6 : IVec S50000x3 1 := cmpf .olt main_v4 main_v5
  let main_c_1 : IVec S_ 1 := constantI S_ 1 1#1
  let main_v7 : IVec S_ 1 := (fun x v => Host.reduce IntOp.andi x v reducesTo_S50000x3_S_d0_1 h_S_) main_v6 main_c_1
  let main_v8 : IVec S_ 1 := andi main_v3 main_v7
  let main_v9 : FVec F S129x64 .f32 := Host.absf main_arg4
  let main_cst_2 : FVec F S_ .f32 := constant S_ .f32 0x7F800000#32
  let main_v10 : FVec F S129x64 .f32 := broadcastInDim S129x64 ![] bcast_S_S129x64 main_cst_2
  let main_v11 : IVec S129x64 1 := cmpf .olt main_v9 main_v10
  let main_c_3 : IVec S_ 1 := constantI S_ 1 1#1
  let main_v12 : IVec S_ 1 := (fun x v => Host.reduce IntOp.andi x v reducesTo_S129x64_S_d0_1 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg6 main_arg7 main_arg8 main_arg9 main_arg10 main_arg11 main_arg12 main_arg13 main_arg14 main_arg15 main_v13 main_v16
-- ==== Kernel.lean ====
abbrev S50000x64 : Shape := ⟨2, ![50000, 64]⟩
abbrev S50000x3 : Shape := ⟨2, ![50000, 3]⟩
abbrev S800000 : Shape := ⟨1, ![800000]⟩
abbrev S129x64 : Shape := ⟨2, ![129, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S128x64 : Shape := ⟨2, ![128, 64]⟩
abbrev S_ : Shape := ⟨0, ![]⟩
abbrev S800000x1 : Shape := ⟨2, ![800000, 1]⟩
abbrev S800000x64 : Shape := ⟨2, ![800000, 64]⟩
abbrev S800000x3 : Shape := ⟨2, ![800000, 3]⟩
abbrev S1x64 : Shape := ⟨2, ![1, 64]⟩
abbrev S1x1 : Shape := ⟨2, ![1, 1]⟩
abbrev S3200x64 : Shape := ⟨2, ![3200, 64]⟩
abbrev S3200x3 : Shape := ⟨2, ![3200, 3]⟩
abbrev S3200 : Shape := ⟨1, ![3200]⟩
abbrev S3200x1 : Shape := ⟨2, ![3200, 1]⟩
abbrev S3200x129 : Shape := ⟨2, ![3200, 129]⟩
abbrev S5000x64 : Shape := ⟨2, ![5000, 64]⟩
abbrev S5000x128 : Shape := ⟨2, ![5000, 128]⟩

abbrev nBuf : Space → Nat
  | .hbm => 71
  | .vmem => 28
  | .smem => 0
  | _ => 0

abbrev bufTy : (tb : Table) → Fin (tcTables nBuf tb) → BufTy
  | .hbm, ⟨0, _⟩ => ⟨S50000x64, .f32⟩
  | .hbm, ⟨1, _⟩ => ⟨S50000x3, .f32⟩
  | .hbm, ⟨2, _⟩ => ⟨S800000, .i32⟩
  | .hbm, ⟨3, _⟩ => ⟨S800000, .i32⟩
  | .hbm, ⟨4, _⟩ => ⟨S129x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S64x64, .f32⟩
  | .hbm, ⟨9, _⟩ => ⟨S64, .f32⟩
  | .hbm, ⟨10, _⟩ => ⟨S64x1, .f32⟩
  | .hbm, ⟨11, _⟩ => ⟨S1, .f32⟩
  | .hbm, ⟨12, _⟩ => ⟨S128x64, .f32⟩
  | .hbm, ⟨13, _⟩ => ⟨S64, .f32⟩
  | .hbm, ⟨14, _⟩ => ⟨S64x64, .f32⟩
  | .hbm, ⟨15, _⟩ => ⟨S64, .f32⟩
  | .hbm, ⟨16, _⟩ => ⟨S_, .i32⟩
  | .hbm, ⟨17, _⟩ => ⟨S800000, .i32⟩
  | .hbm, ⟨18, _⟩ => ⟨S800000, .i1⟩
  | .hbm, ⟨19, _⟩ => ⟨S_, .i32⟩
  | .hbm, ⟨20, _⟩ => ⟨S800000, .i32⟩
  | .hbm, ⟨21, _⟩ => ⟨S800000, .i32⟩
  | .hbm, ⟨22, _⟩ => ⟨S800000, .i32⟩
  | .hbm, ⟨23, _⟩ => ⟨S800000x1, .i32⟩
  | .hbm, ⟨24, _⟩ => ⟨S800000x64, .f32⟩
  | .hbm, ⟨25, _⟩ => ⟨S_, .i32⟩
  | .hbm, ⟨26, _⟩ => ⟨S800000, .i32⟩
  | .hbm, ⟨27, _⟩ => ⟨S800000, .i1⟩
  | .hbm, ⟨28, _⟩ => ⟨S_, .i32⟩
  | .hbm, ⟨29, _⟩ => ⟨S800000, .i32⟩
  | .hbm, ⟨30, _⟩ => ⟨S800000, .i32⟩
  | .hbm, ⟨31, _⟩ => ⟨S800000, .i32⟩
  | .hbm, ⟨32, _⟩ => ⟨S800000x1, .i32⟩
  | .hbm, ⟨33, _⟩ => ⟨S800000x64, .f32⟩
  | .hbm, ⟨34, _⟩ => ⟨S_, .i32⟩
  | .hbm, ⟨35, _⟩ => ⟨S800000, .i32⟩
  | .hbm, ⟨36, _⟩ => ⟨S800000, .i1⟩
  | .hbm, ⟨37, _⟩ => ⟨S_, .i32⟩
  | .hbm, ⟨38, _⟩ => ⟨S800000, .i32⟩
  | .hbm, ⟨39, _⟩ => ⟨S800000, .i32⟩
  | .hbm, ⟨40, _⟩ => ⟨S800000, .i32⟩
  | .hbm, ⟨41, _⟩ => ⟨S800000x1, .i32⟩
  | .hbm, ⟨42, _⟩ => ⟨S800000x3, .f32⟩
  | .hbm, ⟨43, _⟩ => ⟨S_, .i32⟩
  | .hbm, ⟨44, _⟩ => ⟨S800000, .i32⟩
  | .hbm, ⟨45, _⟩ => ⟨S800000, .i1⟩
  | .hbm, ⟨46, _⟩ => ⟨S_, .i32⟩
  | .hbm, ⟨47, _⟩ => ⟨S800000, .i32⟩
  | .hbm, ⟨48, _⟩ => ⟨S800000, .i32⟩
  | .hbm, ⟨49, _⟩ => ⟨S800000, .i32⟩
  | .hbm, ⟨50, _⟩ => ⟨S800000x1, .i32⟩
  | .hbm, ⟨51, _⟩ => ⟨S800000x3, .f32⟩
  | .hbm, ⟨52, _⟩ => ⟨S800000x3, .f32⟩
  | .hbm, ⟨53, _⟩ => ⟨S1x64, .f32⟩
  | .hbm, ⟨54, _⟩ => ⟨S1x64, .f32⟩
  | .hbm, ⟨55, _⟩ => ⟨S1x64, .f32⟩
  | .hbm, ⟨56, _⟩ => ⟨S1x1, .f32⟩
  | .hbm, ⟨57, _⟩ => ⟨S800000x64, .f32⟩
  | .hbm, ⟨58, _⟩ => ⟨S800000x3, .f32⟩
  | .hbm, ⟨59, _⟩ => ⟨S_, .f32⟩
  | .hbm, ⟨60, _⟩ => ⟨S50000x3, .f32⟩
  | .hbm, ⟨61, _⟩ => ⟨S800000x1, .i32⟩
  | .hbm, ⟨62, _⟩ => ⟨S50000x3, .f32⟩
  | .hbm, ⟨63, _⟩ => ⟨S_, .f32⟩
  | .hbm, ⟨64, _⟩ => ⟨S50000x64, .f32⟩
  | .hbm, ⟨65, _⟩ => ⟨S800000x1, .i32⟩
  | .hbm, ⟨66, _⟩ => ⟨S50000x64, .f32⟩
  | .hbm, ⟨67, _⟩ => ⟨S50000x3, .f32⟩
  | .hbm, ⟨68, _⟩ => ⟨S1x64, .f32⟩
  | .hbm, ⟨69, _⟩ => ⟨S1x64, .f32⟩
  | .hbm, ⟨70, _⟩ => ⟨S50000x64, .f32⟩
  | .local _ .vmem, ⟨0, _⟩ => ⟨S3200x64, .f32⟩
  | .local _ .vmem, ⟨1, _⟩ => ⟨S3200x64, .f32⟩
  | .local _ .vmem, ⟨2, _⟩ => ⟨S3200x64, .f32⟩
  | .local _ .vmem, ⟨3, _⟩ => ⟨S3200x64, .f32⟩
  | .local _ .vmem, ⟨4, _⟩ => ⟨S3200x3, .f32⟩
  | .local _ .vmem, ⟨5, _⟩ => ⟨S3200x3, .f32⟩
  | .local _ .vmem, ⟨6, _⟩ => ⟨S129x64, .f32⟩
  | .local _ .vmem, ⟨7, _⟩ => ⟨S1x64, .f32⟩
  | .local _ .vmem, ⟨8, _⟩ => ⟨S64x64, .f32⟩
  | .local _ .vmem, ⟨9, _⟩ => ⟨S1x64, .f32⟩
  | .local _ .vmem, ⟨10, _⟩ => ⟨S64x64, .f32⟩
  | .local _ .vmem, ⟨11, _⟩ => ⟨S1x64, .f32⟩
  | .local _ .vmem, ⟨12, _⟩ => ⟨S64x1, .f32⟩
  | .local _ .vmem, ⟨13, _⟩ => ⟨S1x1, .f32⟩
  | .local _ .vmem, ⟨14, _⟩ => ⟨S3200x64, .f32⟩
  | .local _ .vmem, ⟨15, _⟩ => ⟨S3200x64, .f32⟩
  | .local _ .vmem, ⟨16, _⟩ => ⟨S3200x3, .f32⟩
  | .local _ .vmem, ⟨17, _⟩ => ⟨S3200x3, .f32⟩
  | .local _ .vmem, ⟨18, _⟩ => ⟨S5000x64, .f32⟩
  | .local _ .vmem, ⟨19, _⟩ => ⟨S5000x64, .f32⟩
  | .local _ .vmem, ⟨20, _⟩ => ⟨S5000x64, .f32⟩
  | .local _ .vmem, ⟨21, _⟩ => ⟨S5000x64, .f32⟩
  | .local _ .vmem, ⟨22, _⟩ => ⟨S128x64, .f32⟩
  | .local _ .vmem, ⟨23, _⟩ => ⟨S1x64, .f32⟩
  | .local _ .vmem, ⟨24, _⟩ => ⟨S64x64, .f32⟩
  | .local _ .vmem, ⟨25, _⟩ => ⟨S1x64, .f32⟩
  | .local _ .vmem, ⟨26, _⟩ => ⟨S5000x64, .f32⟩
  | .local _ .vmem, ⟨27, _⟩ => ⟨S5000x64, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_c : Ref sig .tc := ⟨.hbm, 16, rfl⟩
abbrev main_v0 : Ref sig .tc := ⟨.hbm, 17, rfl⟩
abbrev main_v1 : Ref sig .tc := ⟨.hbm, 18, rfl⟩
abbrev main_c_0 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_c_1 : Ref sig .tc := ⟨.hbm, 25, rfl⟩
abbrev main_v7 : Ref sig .tc := ⟨.hbm, 26, rfl⟩
abbrev main_v8 : Ref sig .tc := ⟨.hbm, 27, rfl⟩
abbrev main_c_2 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_c_3 : Ref sig .tc := ⟨.hbm, 34, rfl⟩
abbrev main_v14 : Ref sig .tc := ⟨.hbm, 35, rfl⟩
abbrev main_v15 : Ref sig .tc := ⟨.hbm, 36, rfl⟩
abbrev main_c_4 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_c_5 : Ref sig .tc := ⟨.hbm, 43, rfl⟩
abbrev main_v21 : Ref sig .tc := ⟨.hbm, 44, rfl⟩
abbrev main_v22 : Ref sig .tc := ⟨.hbm, 45, rfl⟩
abbrev main_c_6 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33_0 : Ref sig .tc := ⟨.hbm, 57, rfl⟩
abbrev main_v33_1 : Ref sig .tc := ⟨.hbm, 58, rfl⟩
abbrev main_cst : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_cst_7 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc1_stg0_0 : Ref sig .tc := ⟨.vmem, 18, rfl⟩
abbrev cc1_stg0_1 : Ref sig .tc := ⟨.vmem, 19, rfl⟩
abbrev cc1_stg1_0 : Ref sig .tc := ⟨.vmem, 20, rfl⟩
abbrev cc1_stg1_1 : Ref sig .tc := ⟨.vmem, 21, rfl⟩
abbrev cc1_stg2_0 : Ref sig .tc := ⟨.vmem, 22, rfl⟩
abbrev cc1_stg3_0 : Ref sig .tc := ⟨.vmem, 23, rfl⟩
abbrev cc1_stg4_0 : Ref sig .tc := ⟨.vmem, 24, rfl⟩
abbrev cc1_stg5_0 : Ref sig .tc := ⟨.vmem, 25, rfl⟩
abbrev cc1_stg6_0 : Ref sig .tc := ⟨.vmem, 26, rfl⟩
abbrev cc1_stg6_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem11_1 : DmaSem sig := 15
abbrev cc0_sem12_0 : DmaSem sig := 16
abbrev cc0_sem12_1 : DmaSem sig := 17
abbrev cc1_sem0_0 : DmaSem sig := 18
abbrev cc1_sem0_1 : DmaSem sig := 19
abbrev cc1_sem1_0 : DmaSem sig := 20
abbrev cc1_sem1_1 : DmaSem sig := 21
abbrev cc1_sem2_0 : DmaSem sig := 22
abbrev cc1_sem3_0 : DmaSem sig := 23
abbrev cc1_sem4_0 : DmaSem sig := 24
abbrev cc1_sem5_0 : DmaSem sig := 25
abbrev cc1_sem6_0 : DmaSem sig := 26
abbrev cc1_sem6_1 : DmaSem sig := 27

abbrev nD : Nat := 1
abbrev τ : Topo := Topo.v7x

variable {F : FTy → Type} [FloatOps F]

abbrev grid0 : Pipeline.Grid := ⟨1, ![250], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S3200x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3200x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S3200x3 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S129x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S64x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S3200x64 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S3200x3 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  shapeCasts_S64_S1x64 : S64.ShapeCasts S1x64
  shapeCasts_S1_S1x1 : S1.ShapeCasts S1x1
  inb_S3200x64_S3200x64_0_0 : ∀ a, (![0, 0] : Fin 2 → Nat) a + S3200x64.size a ≤ S3200x64.size a
  h_S3200x64 : 0 < S3200x64.numel
  shapeCasts_S3200x64_S3200x64 : S3200x64.ShapeCasts S3200x64
  inb_S3200x3_S3200x3_0_0 : ∀ a, (![0, 0] : Fin 2 → Nat) a + S3200x3.size a ≤ S3200x3.size a
  h_S3200x3 : 0 < S3200x3.numel
  shapeCasts_S3200x3_S3200x3 : S3200x3.ShapeCasts S3200x3
  reduces_S3200x3_S3200 : S3200x3.Reduces [1] S3200
  shapeCasts_S3200_S3200x1 : S3200.ShapeCasts S3200x1
  concatenates_S3200x64_S3200x64_S3200x1_S3200x129_d1 : Shape.Concatenates [S3200x64, S3200x64, S3200x1] S3200x129 1
  inb_S129x64_S129x64_0_0 : ∀ a, (![0, 0] : Fin 2 → Nat) a + S129x64.size a ≤ S129x64.size a
  h_S129x64 : 0 < S129x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  inb_S64x1_S64x1_0_0 : ∀ a, (![0, 0] : Fin 2 → Nat) a + S64x1.size a ≤ S64x1.size a
  h_S64x1 : 0 < S64x1.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x64_S3200x64 : S1x64.Broadcasts S3200x64
  broadcasts_S1x1_S3200x1 : S1x1.Broadcasts S3200x1
  broadcasts_S3200x1_S3200x3 : S3200x1.Broadcasts S3200x3
  bcast_S_S50000x3 : S_.BroadcastsInDim S50000x3 (![] : Fin 0 → Fin S50000x3.rank)
  bcast_S_S50000x64 : S_.BroadcastsInDim S50000x64 (![] : Fin 0 → Fin S50000x64.rank)
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  concatenates_S5000x64_S5000x64_S5000x128_d1 : Shape.Concatenates [S5000x64, S5000x64] S5000x128 1
  inb_S128x64_S128x64_0_0 : ∀ a, (![0, 0] : Fin 2 → Nat) a + S128x64.size a ≤ S128x64.size a
  h_S128x64 : 0 < S128x64.numel
  broadcasts_S1x64_S5000x64 : S1x64.Broadcasts S5000x64
  gather_S50000x64_S800000x1_S800000x64_1_0_n_n_0_1_164_wf : GatherDims.WF S50000x64 S800000x1 S800000x64 [1] [0] [] [0] [] 1 ![1, 64]
  gather_S50000x3_S800000x1_S800000x3_1_0_n_n_0_1_13_wf : GatherDims.WF S50000x3 S800000x1 S800000x3 [1] [0] [] [0] [] 1 ![1, 3]
  dot_S3200x129_S129x64_S3200x64_1_0_0_1_n_n_wf : DotDims.WF S3200x129 S129x64 S3200x64 [1] [0] [0] [1] [] []
  dot_S3200x64_S64x64_S3200x64_1_0_0_1_n_n_wf : DotDims.WF S3200x64 S64x64 S3200x64 [1] [0] [0] [1] [] []
  dot_S3200x64_S64x1_S3200x1_1_0_0_1_n_n_wf : DotDims.WF S3200x64 S64x1 S3200x1 [1] [0] [0] [1] [] []
  scatter_S50000x3_S800000x1_S800000x3_1_0_0_1_wf : ScatterDims.WF S50000x3 S800000x1 S800000x3 [1] [0] [0] 1
  scatter_S50000x64_S800000x1_S800000x64_1_0_0_1_wf : ScatterDims.WF S50000x64 S800000x1 S800000x64 [1] [0] [0] 1
  dot_S5000x128_S128x64_S5000x64_1_0_0_1_n_n_wf : DotDims.WF S5000x128 S128x64 S5000x64 [1] [0] [0] [1] [] []
  dot_S5000x64_S64x64_S5000x64_1_0_0_1_n_n_wf : DotDims.WF S5000x64 S64x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S3200x64.size a ≤ S800000x64.size a
  hwx0_0 : ∀ i : grid0.Coords, EltTy.bits .f32 = 32 ∨ (Rect.block (s := S800000x64) S3200x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S3200x64.size a ≤ S800000x64.size a
  hwx0_1 : ∀ i : grid0.Coords, EltTy.bits .f32 = 32 ∨ (Rect.block (s := S800000x64) S3200x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S3200x3.size a ≤ S800000x3.size a
  hwx0_2 : ∀ i : grid0.Coords, EltTy.bits .f32 = 32 ∨ (Rect.block (s := S800000x3) S3200x3.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S129x64.size a ≤ S129x64.size a
  hwx0_3 : ∀ i : grid0.Coords, EltTy.bits .f32 = 32 ∨ (Rect.block (s := S129x64) S129x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x64.size a ≤ S64x64.size a
  hwx0_5 : ∀ i : grid0.Coords, EltTy.bits .f32 = 32 ∨ (Rect.block (s := S64x64) S64x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x64.size a ≤ S1x64.size a
  hwx0_6 : ∀ i : grid0.Coords, EltTy.bits .f32 = 32 ∨ (Rect.block (s := S1x64) S1x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S64x64.size a ≤ S64x64.size a
  hwx0_7 : ∀ i : grid0.Coords, EltTy.bits .f32 = 32 ∨ (Rect.block (s := S64x64) S64x64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x64.size a ≤ S1x64.size a
  hwx0_8 : ∀ i : grid0.Coords, EltTy.bits .f32 = 32 ∨ (Rect.block (s := S1x64) S1x64.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S64x1.size a ≤ S64x1.size a
  hwx0_9 : ∀ i : grid0.Coords, EltTy.bits .f32 = 32 ∨ (Rect.block (s := S64x1) S64x1.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x1.size a ≤ S1x1.size a
  hwx0_10 : ∀ i : grid0.Coords, EltTy.bits .f32 = 32 ∨ (Rect.block (s := S1x1) S1x1.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S3200x64.size a ≤ S800000x64.size a
  hwx0_11 : ∀ i : grid0.Coords, EltTy.bits .f32 = 32 ∨ (Rect.block (s := S800000x64) S3200x64.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S3200x3.size a ≤ S800000x3.size a
  hwx0_12 : ∀ i : grid0.Coords, EltTy.bits .f32 = 32 ∨ (Rect.block (s := S800000x3) S3200x3.size (cc0_transform_12 i) (hinb0_12 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S50000x64.size a
  hwx1_1 : ∀ i : grid1.Coords, EltTy.bits .f32 = 32 ∨ (Rect.block (s := S50000x64) S5000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x64.size a ≤ S128x64.size a
  hwx1_2 : ∀ i : grid1.Coords, EltTy.bits .f32 = 32 ∨ (Rect.block (s := S128x64) S128x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x64.size a ≤ S64x64.size a
  hwx1_4 : ∀ i : grid1.Coords, EltTy.bits .f32 = 32 ∨ (Rect.block (s := S64x64) S64x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x64.size a ≤ S1x64.size a
  hwx1_5 : ∀ i : grid1.Coords, EltTy.bits .f32 = 32 ∨ (Rect.block (s := S1x64) S1x64.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x64.size a ≤ S50000x64.size a
  hwx1_6 : ∀ i : grid1.Coords, EltTy.bits .f32 = 32 ∨ (Rect.block (s := S50000x64) S5000x64.size (cc1_transform_6 i) (hinb1_6 i)).WholeWords (EltTy.packing .f32)

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def gather_S50000x3_S800000x1_S800000x3_1_0_n_n_0_1_13 : GatherDims S50000x3 S800000x1 S800000x3 where
  offsetDims := [1]
  collapsedSliceDims := [0]
  operandBatchingDims := []
  startIndicesBatchingDims := []
  startIndexMap := [0]
  indexVectorDim := 1
  sliceSizes := ![1, 3]
  wf := gather_S50000x3_S800000x1_S800000x3_1_0_n_n_0_1_13_wf
def dot_S3200x129_S129x64_S3200x64_1_0_0_1_n_n : DotDims S3200x129 S129x64 S3200x64 where
  lhsContracting := [1]
  rhsContracting := [0]
  lhsNonContracting := [0]
  rhsNonContracting := [1]
  lhsBatch := []
  rhsBatch := []
  wf := dot_S3200x129_S129x64_S3200x64_1_0_0_1_n_n_wf
def dot_S3200x64_S64x64_S3200x64_1_0_0_1_n_n : DotDims S3200x64 S64x64 S3200x64 where
  lhsContracting := [1]
  rhsContracting := [0]
  lhsNonContracting := [0]
  rhsNonContracting := [1]
  lhsBatch := []
  rhsBatch := []
  wf := dot_S3200x64_S64x64_S3200x64_1_0_0_1_n_n_wf
def dot_S3200x64_S64x1_S3200x1_1_0_0_1_n_n : DotDims S3200x64 S64x1 S3200x1 where
  lhsContracting := [1]
  rhsContracting := [0]
  lhsNonContracting := [0]
  rhsNonContracting := [1]
  lhsBatch := []
  rhsBatch := []
  wf := dot_S3200x64_S64x1_S3200x1_1_0_0_1_n_n_wf
def scatter_S50000x3_S800000x1_S800000x3_1_0_0_1 : ScatterDims S50000x3 S800000x1 S800000x3 where
  updateWindowDims := [1]
  insertedWindowDims := [0]
  scatterDimsToOperandDims := [0]
  indexVectorDim := 1
  wf := scatter_S50000x3_S800000x1_S800000x3_1_0_0_1_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf

abbrev win0_0 : Pipeline.Window sig grid0 :=
  Pipeline.Window.ofSpec (Memref.whole main_v6) S3200x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S3200x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v28) S3200x3.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S129x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v29) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S64x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v30) S1x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg8) S64x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v31) S1x64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg10) S64x1.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v32) S1x1.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v33_0) S3200x64.size cc0_transform_11 reads0_11 true false 2 stage0_11 sem0_11
    hrank0 hreads0_11 hinb0_11 nbuf0_11 (Memref.isWhole_whole _) hwx0_11 hstage0_11

abbrev win0_12 : Pipeline.Window sig grid0 :=
  Pipeline.Window.ofSpec (Memref.whole main_v33_1) S3200x3.size cc0_transform_12 reads0_12 true false 2 stage0_12 sem0_12
    hrank0 hreads0_12 hinb0_12 nbuf0_12 (Memref.isWhole_whole _) hwx0_12 hstage0_12

abbrev win0 : Fin 13 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | ⟨_ + 13, h⟩ => absurd h (Nat.not_lt.2 (Nat.le_add_left _ _))
abbrev spec0 : Fin 13 → Pipeline.WinSpec sig grid0.rank := fun w => (win0 w).toWinSpec

abbrev win1_0 : Pipeline.Window sig grid1 :=
  Pipeline.Window.ofSpec (Memref.whole main_arg0) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v39) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg12) S128x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v41) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg14) S64x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v42) S1x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v43) S5000x64.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S50000x64 : Shape := ⟨2, ![50000, 64]⟩
abbrev S50000x3 : Shape := ⟨2, ![50000, 3]⟩
abbrev S800000 : Shape := ⟨1, ![800000]⟩
abbrev S129x64 : Shape := ⟨2, ![129, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S128x64 : Shape := ⟨2, ![128, 64]⟩
abbrev S_ : Shape := ⟨0, ![]⟩
abbrev S800000x1 : Shape := ⟨2, ![800000, 1]⟩
abbrev S800000x64 : Shape := ⟨2, ![800000, 64]⟩
abbrev S800000x3 : Shape := ⟨2, ![800000, 3]⟩
abbrev S800000x129 : Shape := ⟨2, ![800000, 129]⟩
abbrev S1x64 : Shape := ⟨2, ![1, 64]⟩
abbrev S1x1 : Shape := ⟨2, ![1, 1]⟩
abbrev S50000x128 : Shape := ⟨2, ![50000, 128]⟩

abbrev nBuf : Space → Nat
  | .hbm => 130
  | .vmem => 0
  | .smem => 0
  | _ => 0

abbrev hbmTy0_0 (i : Nat) : BufTy := match i % 128 with
  | 0 => ⟨S50000x64, .f32⟩
  | 1 => ⟨S50000x3, .f32⟩
  | 2 => ⟨S800000, .i32⟩
  | 3 => ⟨S800000, .i32⟩
  | 4 => ⟨S129x64, .f32⟩
  | 5 => ⟨S64, .f32⟩
  | 6 => ⟨S64x64, .f32⟩
  | 7 => ⟨S64, .f32⟩
  | 8 => ⟨S64x64, .f32⟩
  | 9 => ⟨S64, .f32⟩
  | 10 => ⟨S64x1, .f32⟩
  | 11 => ⟨S1, .f32⟩
  | 12 => ⟨S128x64, .f32⟩
  | 13 => ⟨S64, .f32⟩
  | 14 => ⟨S64x64, .f32⟩
  | 15 => ⟨S64, .f32⟩
  | 16 => ⟨S_, .i32⟩
  | 17 => ⟨S800000, .i32⟩
  | 18 => ⟨S800000, .i1⟩
  | 19 => ⟨S_, .i32⟩
  | 20 => ⟨S800000, .i32⟩
  | 21 => ⟨S800000, .i32⟩
  | 22 => ⟨S800000, .i32⟩
  | 23 => ⟨S800000x1, .i32⟩
  | 24 => ⟨S800000x64, .f32⟩
  | 25 => ⟨S_, .i32⟩
  | 26 => ⟨S800000, .i32⟩
  | 27 => ⟨S800000, .i1⟩
  | 28 => ⟨S_, .i32⟩
  | 29 => ⟨S800000, .i32⟩
  | 30 => ⟨S800000, .i32⟩
  | 31 => ⟨S800000, .i32⟩
  | 32 => ⟨S800000x1, .i32⟩
  | 33 => ⟨S800000x64, .f32⟩
  | 34 => ⟨S_, .i32⟩
  | 35 => ⟨S800000, .i32⟩
  | 36 => ⟨S800000, .i1⟩
  | 37 => ⟨S_, .i32⟩
  | 38 => ⟨S800000, .i32⟩
  | 39 => ⟨S800000, .i32⟩
  | 40 => ⟨S800000, .i32⟩
  | 41 => ⟨S800000x1, .i32⟩
  | 42 => ⟨S800000x3, .f32⟩
  | 43 => ⟨S_, .i32⟩
  | 44 => ⟨S800000, .i32⟩
  | 45 => ⟨S800000, .i1⟩
  | 46 => ⟨S_, .i32⟩
  | 47 => ⟨S800000, .i32⟩
  | 48 => ⟨S800000, .i32⟩
  | 49 => ⟨S800000, .i32⟩
  | 50 => ⟨S800000x1, .i32⟩
  | 51 => ⟨S800000x3, .f32⟩
  | 52 => ⟨S800000x3, .f32⟩
  | 53 => ⟨S800000x3, .f32⟩
  | 54 => ⟨S_, .f32⟩
  | 55 => ⟨S800000, .f32⟩
  | 56 => ⟨S800000x1, .f32⟩
  | 57 => ⟨S800000x129, .f32⟩
  | 58 => ⟨S800000x64, .f32⟩
  | 59 => ⟨S1x64, .f32⟩
  | 60 => ⟨S800000x64, .f32⟩
  | 61 => ⟨S800000x64, .f32⟩
  | 62 => ⟨S800000x64, .f32⟩
  | 63 => ⟨S800000x64, .f32⟩
  | 64 => ⟨S_, .f32⟩
  | 65 => ⟨S800000x64, .f32⟩
  | 66 => ⟨S800000x64, .f32⟩
  | 67 => ⟨S_, .f32⟩
  | 68 => ⟨S800000x64, .f32⟩
  | 69 => ⟨S800000x64, .f32⟩
  | 70 => ⟨S800000x64, .f32⟩
  | 71 => ⟨S800000x64, .f32⟩
  | 72 => ⟨S1x64, .f32⟩
  | 73 => ⟨S800000x64, .f32⟩
  | 74 => ⟨S800000x64, .f32⟩
  | 75 => ⟨S800000x64, .f32⟩
  | 76 => ⟨S800000x64, .f32⟩
  | 77 => ⟨S_, .f32⟩
  | 78 => ⟨S800000x64, .f32⟩
  | 79 => ⟨S800000x64, .f32⟩
  | 80 => ⟨S_, .f32⟩
  | 81 => ⟨S800000x64, .f32⟩
  | 82 => ⟨S800000x64, .f32⟩
  | 83 => ⟨S800000x64, .f32⟩
  | 84 => ⟨S800000x64, .f32⟩
  | 85 => ⟨S1x64, .f32⟩
  | 86 => ⟨S800000x64, .f32⟩
  | 87 => ⟨S800000x64, .f32⟩
  | 88 => ⟨S800000x64, .f32⟩
  | 89 => ⟨S800000x64, .f32⟩
  | 90 => ⟨S_, .f32⟩
  | 91 => ⟨S800000x64, .f32⟩
  | 92 => ⟨S800000x64, .f32⟩
  | 93 => ⟨S_, .f32⟩
  | 94 => ⟨S800000x64, .f32⟩
  | 95 => ⟨S800000x64, .f32⟩
  | 96 => ⟨S800000x64, .f32⟩
  | 97 => ⟨S800000x1, .f32⟩
  | 98 => ⟨S1x1, .f32⟩
  | 99 => ⟨S800000x1, .f32⟩
  | 100 => ⟨S800000x1, .f32⟩
  | 101 => ⟨S800000x3, .f32⟩
  | 102 => ⟨S800000x3, .f32⟩
  | 103 => ⟨S_, .f32⟩
  | 104 => ⟨S50000x3, .f32⟩
  | 105 => ⟨S800000x1, .i32⟩
  | 106 => ⟨S50000x3, .f32⟩
  | 107 => ⟨S_, .f32⟩
  | 108 => ⟨S50000x64, .f32⟩
  | 109 => ⟨S800000x1, .i32⟩
  | 110 => ⟨S50000x64, .f32⟩
  | 111 => ⟨S50000x3, .f32⟩
  | 112 => ⟨S50000x128, .f32⟩
  | 113 => ⟨S50000x64, .f32⟩
  | 114 => ⟨S1x64, .f32⟩
  | 115 => ⟨S50000x64, .f32⟩
  | 116 => ⟨S50000x64, .f32⟩
  | 117 => ⟨S50000x64, .f32⟩
  | 118 => ⟨S50000x64, .f32⟩
  | 119 => ⟨S_, .f32⟩
  | 120 => ⟨S50000x64, .f32⟩
  | 121 => ⟨S50000x64, .f32⟩
  | 122 => ⟨S_, .f32⟩
  | 123 => ⟨S50000x64, .f32⟩
  | 124 => ⟨S50000x64, .f32⟩
  | 125 => ⟨S50000x64, .f32⟩
  | 126 => ⟨S50000x64, .f32⟩
  | 127 => ⟨S1x64, .f32⟩
  | _ => ⟨S50000x64, .f32⟩

abbrev hbmTy0_1 (i : Nat) : BufTy := match i % 128 with
  | 0 => ⟨S50000x64, .f32⟩
  | 1 => ⟨S50000x64, .f32⟩
  | _ => ⟨S50000x64, .f32⟩

abbrev hbmTy (i : Nat) : BufTy := match i / 128 with
  | 0 => hbmTy0_0 i
  | 1 => hbmTy0_1 i
  | _ => ⟨S50000x64, .f32⟩

abbrev bufTy : (tb : Table) → Fin (tcTables nBuf tb) → BufTy
  | .hbm, ⟨i, _⟩ => hbmTy i
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_c : Ref sig .tc := ⟨.hbm, 16, rfl⟩
abbrev main_v0 : Ref sig .tc := ⟨.hbm, 17, rfl⟩
abbrev main_v1 : Ref sig .tc := ⟨.hbm, 18, rfl⟩
abbrev main_c_0 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_c_1 : Ref sig .tc := ⟨.hbm, 25, rfl⟩
abbrev main_v7 : Ref sig .tc := ⟨.hbm, 26, rfl⟩
abbrev main_v8 : Ref sig .tc := ⟨.hbm, 27, rfl⟩
abbrev main_c_2 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_c_3 : Ref sig .tc := ⟨.hbm, 34, rfl⟩
abbrev main_v14 : Ref sig .tc := ⟨.hbm, 35, rfl⟩
abbrev main_v15 : Ref sig .tc := ⟨.hbm, 36, rfl⟩
abbrev main_c_4 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_c_5 : Ref sig .tc := ⟨.hbm, 43, rfl⟩
abbrev main_v21 : Ref sig .tc := ⟨.hbm, 44, rfl⟩
abbrev main_v22 : Ref sig .tc := ⟨.hbm, 45, rfl⟩
abbrev main_c_6 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_cst : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_call0_v0 : Ref sig .tc := ⟨.hbm, 62, rfl⟩
abbrev main_call0_v1 : Ref sig .tc := ⟨.hbm, 63, rfl⟩
abbrev main_call0_cst : Ref sig .tc := ⟨.hbm, 64, rfl⟩
abbrev main_call0_v2 : Ref sig .tc := ⟨.hbm, 65, rfl⟩
abbrev main_call0_v3 : Ref sig .tc := ⟨.hbm, 66, rfl⟩
abbrev main_call0_cst_0 : Ref sig .tc := ⟨.hbm, 67, rfl⟩
abbrev main_call0_v4 : Ref sig .tc := ⟨.hbm, 68, rfl⟩
abbrev main_call0_v5 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_call1_v0 : Ref sig .tc := ⟨.hbm, 75, rfl⟩
abbrev main_call1_v1 : Ref sig .tc := ⟨.hbm, 76, rfl⟩
abbrev main_call1_cst : Ref sig .tc := ⟨.hbm, 77, rfl⟩
abbrev main_call1_v2 : Ref sig .tc := ⟨.hbm, 78, rfl⟩
abbrev main_call1_v3 : Ref sig .tc := ⟨.hbm, 79, rfl⟩
abbrev main_call1_cst_0 : Ref sig .tc := ⟨.hbm, 80, rfl⟩
abbrev main_call1_v4 : Ref sig .tc := ⟨.hbm, 81, rfl⟩
abbrev main_call1_v5 : Ref sig .tc := ⟨.hbm, 82, rfl⟩
abbrev main_v42 : Ref sig .tc := ⟨.hbm, 83, rfl⟩
abbrev main_v43 : Ref sig .tc := ⟨.hbm, 84, rfl⟩
abbrev main_v44 : Ref sig .tc := ⟨.hbm, 85, rfl⟩
abbrev main_v45 : Ref sig .tc := ⟨.hbm, 86, rfl⟩
abbrev main_v46 : Ref sig .tc := ⟨.hbm, 87, rfl⟩
abbrev main_call2_v0 : Ref sig .tc := ⟨.hbm, 88, rfl⟩
abbrev main_call2_v1 : Ref sig .tc := ⟨.hbm, 89, rfl⟩
abbrev main_call2_cst : Ref sig .tc := ⟨.hbm, 90, rfl⟩
abbrev main_call2_v2 : Ref sig .tc := ⟨.hbm, 91, rfl⟩
abbrev main_call2_v3 : Ref sig .tc := ⟨.hbm, 92, rfl⟩
abbrev main_call2_cst_0 : Ref sig .tc := ⟨.hbm, 93, rfl⟩
abbrev main_call2_v4 : Ref sig .tc := ⟨.hbm, 94, rfl⟩
abbrev main_call2_v5 : Ref sig .tc := ⟨.hbm, 95, rfl⟩
abbrev main_v47 : Ref sig .tc := ⟨.hbm, 96, rfl⟩
abbrev main_v48 : Ref sig .tc := ⟨.hbm, 97, rfl⟩
abbrev main_v49 : Ref sig .tc := ⟨.hbm, 98, rfl⟩
abbrev main_v50 : Ref sig .tc := ⟨.hbm, 99, rfl⟩
abbrev main_v51 : Ref sig .tc := ⟨.hbm, 100, rfl⟩
abbrev main_v52 : Ref sig .tc := ⟨.hbm, 101, rfl⟩
abbrev main_v53 : Ref sig .tc := ⟨.hbm, 102, rfl⟩
abbrev main_cst_7 : Ref sig .tc := ⟨.hbm, 103, rfl⟩
abbrev main_v54 : Ref sig .tc := ⟨.hbm, 104, rfl⟩
abbrev main_v55 : Ref sig .tc := ⟨.hbm, 105, rfl⟩
abbrev main_v56 : Ref sig .tc := ⟨.hbm, 106, rfl⟩
abbrev main_cst_8 : Ref sig .tc := ⟨.hbm, 107, rfl⟩
abbrev main_v57 : Ref sig .tc := ⟨.hbm, 108, rfl⟩
abbrev main_v58 : Ref sig .tc := ⟨.hbm, 109, rfl⟩
abbrev main_v59 : Ref sig .tc := ⟨.hbm, 110, rfl⟩
abbrev main_v60 : Ref sig .tc := ⟨.hbm, 111, rfl⟩
abbrev main_v61 : Ref sig .tc := ⟨.hbm, 112, rfl⟩
abbrev main_v62 : Ref sig .tc := ⟨.hbm, 113, rfl⟩
abbrev main_v63 : Ref sig .tc := ⟨.hbm, 114, rfl⟩
abbrev main_v64 : Ref sig .tc := ⟨.hbm, 115, rfl⟩
abbrev main_v65 : Ref sig .tc := ⟨.hbm, 116, rfl⟩
abbrev main_call3_v0 : Ref sig .tc := ⟨.hbm, 117, rfl⟩
abbrev main_call3_v1 : Ref sig .tc := ⟨.hbm, 118, rfl⟩
abbrev main_call3_cst : Ref sig .tc := ⟨.hbm, 119, rfl⟩
abbrev main_call3_v2 : Ref sig .tc := ⟨.hbm, 120, rfl⟩
abbrev main_call3_v3 : Ref sig .tc := ⟨.hbm, 121, rfl⟩
abbrev main_call3_cst_0 : Ref sig .tc := ⟨.hbm, 122, rfl⟩
abbrev main_call3_v4 : Ref sig .tc := ⟨.hbm, 123, rfl⟩
abbrev main_call3_v5 : Ref sig .tc := ⟨.hbm, 124, rfl⟩
abbrev main_v66 : Ref sig .tc := ⟨.hbm, 125, rfl⟩
abbrev main_v67 : Ref sig .tc := ⟨.hbm, 126, rfl⟩
abbrev main_v68 : Ref sig .tc := ⟨.hbm, 127, rfl⟩
abbrev main_v69 : Ref sig .tc := ⟨.hbm, 128, rfl⟩
abbrev main_v70 : Ref sig .tc := ⟨.hbm, 129, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  reducesTo_S800000x3_S800000_d1 : S800000x3.ReducesTo [1] S800000
  h_S_ : 0 < S_.numel
  concatenates_S800000x64_S800000x64_S800000x1_S800000x129_d1 : Shape.Concatenates [S800000x64, S800000x64, S800000x1] S800000x129 1
  bcast_S64_S1x64_1 : S64.BroadcastsInDim S1x64 (![1] : Fin 1 → Fin S1x64.rank)
  bcast_S1x64_S800000x64_0_1 : S1x64.BroadcastsInDim S800000x64 (![0, 1] : Fin 2 → Fin S800000x64.rank)
  bcast_S_S800000x64 : S_.BroadcastsInDim S800000x64 (![] : Fin 0 → Fin S800000x64.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  bcast_S800000x1_S800000x3_0_1 : S800000x1.BroadcastsInDim S800000x3 (![0, 1] : Fin 2 → Fin S800000x3.rank)
  bcast_S_S50000x3 : S_.BroadcastsInDim S50000x3 (![] : Fin 0 → Fin S50000x3.rank)
  bcast_S_S50000x64 : S_.BroadcastsInDim S50000x64 (![] : Fin 0 → Fin S50000x64.rank)
  concatenates_S50000x64_S50000x64_S50000x128_d1 : Shape.Concatenates [S50000x64, S50000x64] S50000x128 1
  bcast_S1x64_S50000x64_0_1 : S1x64.BroadcastsInDim S50000x64 (![0, 1] : Fin 2 → Fin S50000x64.rank)
  gather_S50000x64_S800000x1_S800000x64_1_0_n_n_0_1_164_wf : GatherDims.WF S50000x64 S800000x1 S800000x64 [1] [0] [] [0] [] 1 ![1, 64]
  gather_S50000x3_S800000x1_S800000x3_1_0_n_n_0_1_13_wf : GatherDims.WF S50000x3 S800000x1 S800000x3 [1] [0] [] [0] [] 1 ![1, 3]
  dot_S800000x129_S129x64_S800000x64_1_0_0_1_n_n_wf : DotDims.WF S800000x129 S129x64 S800000x64 [1] [0] [0] [1] [] []
  dot_S800000x64_S64x64_S800000x64_1_0_0_1_n_n_wf : DotDims.WF S800000x64 S64x64 S800000x64 [1] [0] [0] [1] [] []
  dot_S800000x64_S64x1_S800000x1_1_0_0_1_n_n_wf : DotDims.WF S800000x64 S64x1 S800000x1 [1] [0] [0] [1] [] []
  scatter_S50000x3_S800000x1_S800000x3_1_0_0_1_wf : ScatterDims.WF S50000x3 S800000x1 S800000x3 [1] [0] [0] 1
  scatter_S50000x64_S800000x1_S800000x64_1_0_0_1_wf : ScatterDims.WF S50000x64 S800000x1 S800000x64 [1] [0] [0] 1
  dot_S50000x128_S128x64_S50000x64_1_0_0_1_n_n_wf : DotDims.WF S50000x128 S128x64 S50000x64 [1] [0] [0] [1] [] []
  dot_S50000x64_S64x64_S50000x64_1_0_0_1_n_n_wf : DotDims.WF S50000x64 S64x64 S50000x64 [1] [0] [0] [1] [] []

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def gather_S50000x3_S800000x1_S800000x3_1_0_n_n_0_1_13 : GatherDims S50000x3 S800000x1 S800000x3 where
  offsetDims := [1]
  collapsedSliceDims := [0]
  operandBatchingDims := []
  startIndicesBatchingDims := []
  startIndexMap := [0]
  indexVectorDim := 1
  sliceSizes := ![1, 3]
  wf := gather_S50000x3_S800000x1_S800000x3_1_0_n_n_0_1_13_wf
def dot_S800000x129_S129x64_S800000x64_1_0_0_1_n_n : DotDims S800000x129 S129x64 S800000x64 where
  lhsContracting := [1]
  rhsContracting := [0]
  lhsNonContracting := [0]
  rhsNonContracting := [1]
  lhsBatch := []
  rhsBatch := []
  wf := dot_S800000x129_S129x64_S800000x64_1_0_0_1_n_n_wf
def dot_S800000x64_S64x64_S800000x64_1_0_0_1_n_n : DotDims S800000x64 S64x64 S800000x64 where
  lhsContracting := [1]
  rhsContracting := [0]
  lhsNonContracting := [0]
  rhsNonContracting := [1]
  lhsBatch := []
  rhsBatch := []
  wf := dot_S800000x64_S64x64_S800000x64_1_0_0_1_n_n_wf
def dot_S800000x64_S64x1_S800000x1_1_0_0_1_n_n : DotDims S800000x64 S64x1 S800000x1 where
  lhsContracting := [1]
  rhsContracting := [0]
  lhsNonContracting := [0]
  rhsNonContracting := [1]
  lhsBatch := []
  rhsBatch := []
  wf := dot_S800000x64_S64x1_S800000x1_1_0_0_1_n_n_wf
def scatter_S50000x3_S800000x1_S800000x3_1_0_0_1 : ScatterDims S50000x3 S800000x1 S800000x3 where
  updateWindowDims := [1]
  insertedWindowDims := [0]
  scatterDimsToOperandDims := [0]
  indexVectorDim := 1
  wf := scatter_S50000x3_S800000x1_S800000x3_1_0_0_1_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf

class Facts : Prop extends Facts₀ where

variable [Facts]
-- ==== Proof.Spec.lean ====
/-
  The layer as whole-array functions, spelt with the reference's operations.

  For node features `a0 : [N, 64]`, coordinates `a1 : [N, 3]` and edge endpoints `src, dst : [E]`:
  an edge `e` carries `hs e = a0[src e]`, `hd e = a0[dst e]`, `dx e = a1[src e] − a1[dst e]`;
  its message is `h e = silu (silu ([hs e, hd e, |dx e|²] · W1 + b1) · W2 + b2)` (`silu x = x · 1 / (1 + e^(−x))`),
  its coordinate weight `coef e = silu (h e · Wc1 + bc1) · Wc2 + bc2` and its coordinate message `dx e · coef e`;
  node `n` receives the sums of both messages over the edges with `dst e = n`; the new coordinates are
  `a1 + Σ dx · coef` and the new features `silu ([a0, Σ h] · Wn1 + bn1) · Wn2 + bn2`.
  Every function below is row-local in its edge (or node) arguments except the two gathers and the two scatter-sums.
-/
import proofs.«181869_j44959717655304_1_alg».proof.ReferenceIdeal
import Idealize.ShloMosaic.PureOps.Ideal

noncomputable section

namespace Cert.Spec

open Idealize.ShloMosaic Idealize.ShloMosaic.TcCoe Cert.ReferenceIdeal
open Cert.ReferenceIdeal.Facts₀ Cert.ReferenceIdeal.Facts

variable {F : FTy → Type} [FloatOps F] [Cert.ReferenceIdeal.Facts]

/-- An array of shape `s` and element type `e`. -/
abbrev Arr (s : Shape) (e : EltTy) : Type := (⟨s, e⟩ : BufTy).Contents (Elt F)

/-- Endpoint indices as a column, a negative index counted from the end (`i + N`). -/
def normIdx (a : Arr (F := F) S800000 .i32) : Arr (F := F) S800000x1 .i32 :=
  broadcastInDim S800000x1 ![0] bcast_S800000_S800000x1_0 (select (cmpi .slt a (broadcastInDim S800000 ![] bcast_S_S800000 (constantI S_ 32 0#32))) (addi a (broadcastInDim S800000 ![] bcast_S_S800000 (constantI S_ 32 50000#32))) a)

/-- The feature rows of the edges' endpoints. -/
def hGather (a0 : Arr (F := F) S50000x64 .f32) (idx : Arr (F := F) S800000 .i32) : Arr (F := F) S800000x64 .f32 :=
  Host.gather gather_S50000x64_S800000x1_S800000x64_1_0_n_n_0_1_164 a0 (normIdx idx)

/-- The coordinate rows of the edges' endpoints. -/
def xGather (a1 : Arr (F := F) S50000x3 .f32) (idx : Arr (F := F) S800000 .i32) : Arr (F := F) S800000x3 .f32 :=
  Host.gather gather_S50000x3_S800000x1_S800000x3_1_0_n_n_0_1_13 a1 (normIdx idx)

/-- The coordinate difference along each edge. -/
def dX (a1 : Arr (F := F) S50000x3 .f32) (src dst : Arr (F := F) S800000 .i32) : Arr (F := F) S800000x3 .f32 :=
  subf (xGather a1 src) (xGather a1 dst)

/-- A bias vector as one row. -/
def row64 (b : Arr (F := F) S64 .f32) : Arr (F := F) S1x64 .f32 := broadcastInDim S1x64 ![1] bcast_S64_S1x64_1 b

/-- A one-entry bias as a one-by-one matrix. -/
def row1 (b : Arr (F := F) S1 .f32) : Arr (F := F) S1x1 .f32 := broadcastInDim S1x1 ![1] bcast_S1_S1x1_1 b

/-- `x · 1 / (1 + e^(−x))` on an edge array. -/
def siluE (x : Arr (F := F) S800000x64 .f32) : Arr (F := F) S800000x64 .f32 :=
  mulf x (Host.divf (broadcastInDim S800000x64 ![] bcast_S_S800000x64 (constant S_ .f32 0x3F800000#32)) (addf (broadcastInDim S800000x64 ![] bcast_S_S800000x64 (constant S_ .f32 0x3F800000#32)) (Host.exp (Host.negf x))))

/-- `x · 1 / (1 + e^(−x))` on a node array. -/
def siluN (x : Arr (F := F) S50000x64 .f32) : Arr (F := F) S50000x64 .f32 :=
  mulf x (Host.divf (broadcastInDim S50000x64 ![] bcast_S_S50000x64 (constant S_ .f32 0x3F800000#32)) (addf (broadcastInDim S50000x64 ![] bcast_S_S50000x64 (constant S_ .f32 0x3F800000#32)) (Host.exp (Host.negf x))))

/-- The edge network's input rows `[hs, hd, |dx|²]`. -/
def edgeIn (hs hd : Arr (F := F) S800000x64 .f32) (dx : Arr (F := F) S800000x3 .f32) : Arr (F := F) S800000x129 .f32 :=
  concatenate S800000x129 1 [⟨S800000x64, hs⟩, ⟨S800000x64, hd⟩, ⟨S800000x1, broadcastInDim S800000x1 ![0] bcast_S800000_S800000x1_0 (Host.reduceAdd (mulf dx dx) (constant S_ .f32 0x00000000#32) reducesTo_S800000x3_S800000_d1 h_S_)⟩] concatenates_S800000x64_S800000x64_S800000x1_S800000x129_d1

/-- A linear layer of width 64 on edge rows. -/
def linE (x : Arr (F := F) S800000x64 .f32) (W : Arr (F := F) S64x64 .f32) (B : Arr (F := F) S1x64 .f32) : Arr (F := F) S800000x64 .f32 :=
  addf (Host.dotGeneral dot_S800000x64_S64x64_S800000x64_1_0_0_1_n_n none x W) (broadcastInDim S800000x64 ![0, 1] bcast_S1x64_S800000x64_0_1 B)

/-- The edge messages. -/
def edgeH (hs hd : Arr (F := F) S800000x64 .f32) (dx : Arr (F := F) S800000x3 .f32) (W1 : Arr (F := F) S129x64 .f32) (B1 : Arr (F := F) S1x64 .f32)
    (W2 : Arr (F := F) S64x64 .f32) (B2 : Arr (F := F) S1x64 .f32) : Arr (F := F) S800000x64 .f32 :=
  siluE (linE (siluE (addf (Host.dotGeneral dot_S800000x129_S129x64_S800000x64_1_0_0_1_n_n none (edgeIn hs hd dx) W1) (broadcastInDim S800000x64 ![0, 1] bcast_S1x64_S800000x64_0_1 B1))) W2 B2)

/-- The coordinate messages from the edge messages. -/
def edgeX (he : Arr (F := F) S800000x64 .f32) (dx : Arr (F := F) S800000x3 .f32) (Wc1 : Arr (F := F) S64x64 .f32) (Bc1 : Arr (F := F) S1x64 .f32)
    (Wc2 : Arr (F := F) S64x1 .f32) (Bc2 : Arr (F := F) S1x1 .f32) : Arr (F := F) S800000x3 .f32 :=
  mulf dx (broadcastInDim S800000x3 ![0, 1] bcast_S800000x1_S800000x3_0_1 (addf (Host.dotGeneral dot_S800000x64_S64x1_S800000x1_1_0_0_1_n_n none (siluE (linE he Wc1 Bc1)) Wc2) (broadcastInDim S800000x1 ![0, 1] bcast_S1x1_S800000x1_0_1 Bc2)))

/-- The sum of coordinate messages into each destination node. -/
def scat3 (dst : Arr (F := F) S800000 .i32) (u : Arr (F := F) S800000x3 .f32) : Arr (F := F) S50000x3 .f32 :=
  Host.scatterAdd scatter_S50000x3_S800000x1_S800000x3_1_0_0_1 (broadcastInDim S50000x3 ![] bcast_S_S50000x3 (constant S_ .f32 0x00000000#32)) (broadcastInDim S800000x1 ![0] bcast_S800000_S800000x1_0 dst) u

/-- The sum of edge messages into each destination node. -/
def scat64 (dst : Arr (F := F) S800000 .i32) (u : Arr (F := F) S800000x64 .f32) : Arr (F := F) S50000x64 .f32 :=
  Host.scatterAdd scatter_S50000x64_S800000x1_S800000x64_1_0_0_1 (broadcastInDim S50000x64 ![] bcast_S_S50000x64 (constant S_ .f32 0x00000000#32)) (broadcastInDim S800000x1 ![0] bcast_S800000_S800000x1_0 dst) u

/-- The node network. -/
def nodeH (a0 hagg : Arr (F := F) S50000x64 .f32) (Wn1 : Arr (F := F) S128x64 .f32) (Bn1 : Arr (F := F) S1x64 .f32)
    (Wn2 : Arr (F := F) S64x64 .f32) (Bn2 : Arr (F := F) S1x64 .f32) : Arr (F := F) S50000x64 .f32 :=
  addf (Host.dotGeneral dot_S50000x64_S64x64_S50000x64_1_0_0_1_n_n none (siluN (addf (Host.dotGeneral dot_S50000x128_S128x64_S50000x64_1_0_0_1_n_n none (concatenate S50000x128 1 [⟨S50000x64, a0⟩, ⟨S50000x64, hagg⟩] concatenates_S50000x64_S50000x64_S50000x128_d1) Wn1) (broadcastInDim S50000x64 ![0, 1] bcast_S1x64_S50000x64_0_1 Bn1))) Wn2) (broadcastInDim S50000x64 ![0, 1] bcast_S1x64_S50000x64_0_1 Bn2)

end Cert.Spec

end
-- ==== Proof.KernelIdealHost.lean ====
/-
  The contents of the kernel program's buffers at the entries of its two grid regions and at its return, read back
  through the host operations to the program's arguments: the edge region is entered with the gathered endpoint rows
  and coordinate differences, the node region with the scatter-summed edge messages, and the returned coordinates are
  the argument coordinates plus the scatter-summed coordinate messages.
-/
import proofs.«181869_j44959717655304_1_alg».proof.Proof.Gen.KernelIdeal.Frame
import proofs.«181869_j44959717655304_1_alg».proof.Proof.Spec

set_option maxRecDepth 16384

noncomputable section

namespace Cert.KernelIdeal.HostVals

open Idealize.ShloMosaic Idealize.ShloMosaic.TcCoe Idealize.SL.Sem
open Cert.KernelIdeal Cert.KernelIdeal.Gen

variable {F : FTy → Type} [FloatOps F] [Cert.ReferenceIdeal.Facts]
variable (m : (ℓ : Loc nD τ sig) → Buf (Elt F) ℓ) (ρ : Dev nD → PrngReg)

/-! ## Buffers that are never written

An argument buffer is the result of no host operation, and the only buffers a grid region changes are its result
arrays; so wherever an argument is read, it still holds what the program was launched with. -/

/-- A buffer that no operation of the first host stretch writes holds its launch contents at the edge region's entry. -/
theorem V1_keep (c : Dev nD) (b : Ref sig .tc)
    (hb : ∀ op ∈ (hostOps0 : List (HloOp τ sig (Elt F))), Proc.devRef .tc b ∉ op.writes) :
    V1 m ρ c b = m ((c : Thread nD τ).loc b) :=
  (StableHlo.after_of_forall_not_mem (b := Proc.devRef .tc b) _ _ hb).trans rfl

/-- If moreover it is no array of the edge region, it holds its launch contents at the edge region's exit. -/
theorem W2_keep (c : Dev nD) (b : Ref sig .tc) (hw : ∀ w, Pipeline.arrRef spec0 w ≠ b)
    (hb : ∀ op ∈ (hostOps0 : List (HloOp τ sig (Elt F))), Proc.devRef .tc b ∉ op.writes) :
    W2 m ρ c (Proc.devRef .tc b) = m ((c : Thread nD τ).loc b) :=
  (W2_of_ne m ρ c b hw).trans (V1_keep m ρ c b hb)

/-- If moreover the second host stretch does not write it, it holds its launch contents at the node region's entry. -/
theorem V3_keep (c : Dev nD) (b : Ref sig .tc) (hw : ∀ w, Pipeline.arrRef spec0 w ≠ b)
    (hb : ∀ op ∈ (hostOps0 : List (HloOp τ sig (Elt F))), Proc.devRef .tc b ∉ op.writes)
    (hb' : ∀ op ∈ (hostOps1 : List (HloOp τ sig (Elt F))), Proc.devRef .tc b ∉ op.writes) :
    V3 m ρ c b = m ((c : Thread nD τ).loc b) :=
  (StableHlo.after_of_forall_not_mem (b := Proc.devRef .tc b) _ _ hb').trans (W2_keep m ρ c b hw hb)

/-- The coordinates, as the second host stretch reads them. -/
theorem W2_arg1 (c : Dev nD) : W2 m ρ c (Proc.devRef .tc main_arg1) = m ((c : Thread nD τ).loc main_arg1) :=
  W2_keep m ρ c main_arg1 (by decide) (List.forall_iff_forall_mem.mp (by
    simp only [hostOps0, List.Forall, StableHlo.nullary_writes, StableHlo.unary_writes, StableHlo.binary_writes, StableHlo.ternary_writes, StableHlo.reshape_writes, Finset.mem_singleton]
    repeat' apply And.intro
    all_goals exact StableHlo.devRef_ne_of_ne (by decide)))
/-- The destination indices, as the second host stretch reads them. -/
theorem W2_arg3 (c : Dev nD) : W2 m ρ c (Proc.devRef .tc main_arg3) = m ((c : Thread nD τ).loc main_arg3) :=
  W2_keep m ρ c main_arg3 (by decide) (List.forall_iff_forall_mem.mp (by
    simp only [hostOps0, List.Forall, StableHlo.nullary_writes, StableHlo.unary_writes, StableHlo.binary_writes, StableHlo.ternary_writes, StableHlo.reshape_writes, Finset.mem_singleton]
    repeat' apply And.intro
    all_goals exact StableHlo.devRef_ne_of_ne (by decide)))

/-! ## The edge region's entry -/

theorem V1_v6 (c : Dev nD) : V1 m ρ c main_v6 = Cert.Spec.hGather (m ((c : Thread nD τ).loc main_arg0)) (m ((c : Thread nD τ).loc main_arg2)) := by
  show StableHlo.after hostOps0 (W0 m ρ c) (Proc.devRef .tc main_v6) = _
  after_results_simp
  rfl
theorem V1_v13 (c : Dev nD) : V1 m ρ c main_v13 = Cert.Spec.hGather (m ((c : Thread nD τ).loc main_arg0)) (m ((c : Thread nD τ).loc main_arg3)) := by
  show StableHlo.after hostOps0 (W0 m ρ c) (Proc.devRef .tc main_v13) = _
  after_results_simp
  rfl
theorem V1_v28 (c : Dev nD) : V1 m ρ c main_v28 = Cert.Spec.dX (m ((c : Thread nD τ).loc main_arg1)) (m ((c : Thread nD τ).loc main_arg2)) (m ((c : Thread nD τ).loc main_arg3)) := by
  show StableHlo.after hostOps0 (W0 m ρ c) (Proc.devRef .tc main_v28) = _
  after_results_simp
  rfl
theorem V1_arg4 (c : Dev nD) : V1 m ρ c main_arg4 = m ((c : Thread nD τ).loc main_arg4) :=
  V1_keep m ρ c main_arg4 (List.forall_iff_forall_mem.mp (by
    simp only [hostOps0, List.Forall, StableHlo.nullary_writes, StableHlo.unary_writes, StableHlo.binary_writes, StableHlo.ternary_writes, StableHlo.reshape_writes, Finset.mem_singleton]
    repeat' apply And.intro
    all_goals exact StableHlo.devRef_ne_of_ne (by decide)))
theorem V1_v29 (c : Dev nD) : V1 m ρ c main_v29 = shapeCast S1x64 (m ((c : Thread nD τ).loc main_arg5)) shapeCasts_S64_S1x64 := by
  show StableHlo.after hostOps0 (W0 m ρ c) (Proc.devRef .tc main_v29) = _
  after_results_simp
  rfl
theorem V1_arg6 (c : Dev nD) : V1 m ρ c main_arg6 = m ((c : Thread nD τ).loc main_arg6) :=
  V1_keep m ρ c main_arg6 (List.forall_iff_forall_mem.mp (by
    simp only [hostOps0, List.Forall, StableHlo.nullary_writes, StableHlo.unary_writes, StableHlo.binary_writes, StableHlo.ternary_writes, StableHlo.reshape_writes, Finset.mem_singleton]
    repeat' apply And.intro
    all_goals exact StableHlo.devRef_ne_of_ne (by decide)))
theorem V1_v30 (c : Dev nD) : V1 m ρ c main_v30 = shapeCast S1x64 (m ((c : Thread nD τ).loc main_arg7)) shapeCasts_S64_S1x64 := by
  show StableHlo.after hostOps0 (W0 m ρ c) (Proc.devRef .tc main_v30) = _
  after_results_simp
  rfl
theorem V1_arg8 (c : Dev nD) : V1 m ρ c main_arg8 = m ((c : Thread nD τ).loc main_arg8) :=
  V1_keep m ρ c main_arg8 (List.forall_iff_forall_mem.mp (by
    simp only [hostOps0, List.Forall, StableHlo.nullary_writes, StableHlo.unary_writes, StableHlo.binary_writes, StableHlo.ternary_writes, StableHlo.reshape_writes, Finset.mem_singleton]
    repeat' apply And.intro
    all_goals exact StableHlo.devRef_ne_of_ne (by decide)))
theorem V1_v31 (c : Dev nD) : V1 m ρ c main_v31 = shapeCast S1x64 (m ((c : Thread nD τ).loc main_arg9)) shapeCasts_S64_S1x64 := by
  show StableHlo.after hostOps0 (W0 m ρ c) (Proc.devRef .tc main_v31) = _
  after_results_simp
  rfl
theorem V1_arg10 (c : Dev nD) : V1 m ρ c main_arg10 = m ((c : Thread nD τ).loc main_arg10) :=
  V1_keep m ρ c main_arg10 (List.forall_iff_forall_mem.mp (by
    simp only [hostOps0, List.Forall, StableHlo.nullary_writes, StableHlo.unary_writes, StableHlo.binary_writes, StableHlo.ternary_writes, StableHlo.reshape_writes, Finset.mem_singleton]
    repeat' apply And.intro
    all_goals exact StableHlo.devRef_ne_of_ne (by decide)))
theorem V1_v32 (c : Dev nD) : V1 m ρ c main_v32 = shapeCast S1x1 (m ((c : Thread nD τ).loc main_arg11)) shapeCasts_S1_S1x1 := by
  show StableHlo.after hostOps0 (W0 m ρ c) (Proc.devRef .tc main_v32) = _
  after_results_simp
  rfl

/-! ## The node region's entry: `he` stands for the edge region's first result array, `(dat0 (V1 m ρ) c).arrAt 11 cfg0.N` -/

theorem V3_arg0 (c : Dev nD) : V3 m ρ c main_arg0 = m ((c : Thread nD τ).loc main_arg0) :=
  V3_keep m ρ c main_arg0 (by decide) (List.forall_iff_forall_mem.mp (by
    simp only [hostOps0, List.Forall, StableHlo.nullary_writes, StableHlo.unary_writes, StableHlo.binary_writes, StableHlo.ternary_writes, StableHlo.reshape_writes, Finset.mem_singleton]
    repeat' apply And.intro
    all_goals exact StableHlo.devRef_ne_of_ne (by decide))) (List.forall_iff_forall_mem.mp (by
    simp only [hostOps1, List.Forall, StableHlo.nullary_writes, StableHlo.unary_writes, StableHlo.binary_writes, StableHlo.ternary_writes, StableHlo.reshape_writes, Finset.mem_singleton]
    repeat' apply And.intro
    all_goals exact StableHlo.devRef_ne_of_ne (by decide)))
theorem V3_v39 (c : Dev nD) : V3 m ρ c main_v39 = Cert.Spec.scat64 (m ((c : Thread nD τ).loc main_arg3)) ((dat0 (V1 m ρ) c).arrAt 11 cfg0.N) := by
  have h11 : W2 m ρ c (Proc.devRef .tc main_v33_0) = (dat0 (V1 m ρ) c).arrAt 11 cfg0.N := W2_arr m ρ c 11
  show StableHlo.after hostOps1 (W2 m ρ c) (Proc.devRef .tc main_v39) = _
  after_results
  rw [h11, W2_arg3]
  rfl
theorem V3_arg12 (c : Dev nD) : V3 m ρ c main_arg12 = m ((c : Thread nD τ).loc main_arg12) :=
  V3_keep m ρ c main_arg12 (by decide) (List.forall_iff_forall_mem.mp (by
    simp only [hostOps0, List.Forall, StableHlo.nullary_writes, StableHlo.unary_writes, StableHlo.binary_writes, StableHlo.ternary_writes, StableHlo.reshape_writes, Finset.mem_singleton]
    repeat' apply And.intro
    all_goals exact StableHlo.devRef_ne_of_ne (by decide))) (List.forall_iff_forall_mem.mp (by
    simp only [hostOps1, List.Forall, StableHlo.nullary_writes, StableHlo.unary_writes, StableHlo.binary_writes, StableHlo.ternary_writes, StableHlo.reshape_writes, Finset.mem_singleton]
    repeat' apply And.intro
    all_goals exact StableHlo.devRef_ne_of_ne (by decide)))
theorem V3_v41 (c : Dev nD) : V3 m ρ c main_v41 = shapeCast S1x64 (m ((c : Thread nD τ).loc main_arg13)) shapeCasts_S64_S1x64 := by
  have h : W2 m ρ c (Proc.devRef .tc main_arg13) = m ((c : Thread nD τ).loc main_arg13) :=
    W2_keep m ρ c main_arg13 (by decide) (List.forall_iff_forall_mem.mp (by
    simp only [hostOps0, List.Forall, StableHlo.nullary_writes, StableHlo.unary_writes, StableHlo.binary_writes, StableHlo.ternary_writes, StableHlo.reshape_writes, Finset.mem_singleton]
    repeat' apply And.intro
    all_goals exact StableHlo.devRef_ne_of_ne (by decide)))
  show StableHlo.after hostOps1 (W2 m ρ c) (Proc.devRef .tc main_v41) = _
  after_results
  rw [h]
  rfl
theorem V3_arg14 (c : Dev nD) : V3 m ρ c main_arg14 = m ((c : Thread nD τ).loc main_arg14) :=
  V3_keep m ρ c main_arg14 (by decide) (List.forall_iff_forall_mem.mp (by
    simp only [hostOps0, List.Forall, StableHlo.nullary_writes, StableHlo.unary_writes, StableHlo.binary_writes, StableHlo.ternary_writes, StableHlo.reshape_writes, Finset.mem_singleton]
    repeat' apply And.intro
    all_goals exact StableHlo.devRef_ne_of_ne (by decide))) (List.forall_iff_forall_mem.mp (by
    simp only [hostOps1, List.Forall, StableHlo.nullary_writes, StableHlo.unary_writes, StableHlo.binary_writes, StableHlo.ternary_writes, StableHlo.reshape_writes, Finset.mem_singleton]
    repeat' apply And.intro
    all_goals exact StableHlo.devRef_ne_of_ne (by decide)))
theorem V3_v42 (c : Dev nD) : V3 m ρ c main_v42 = shapeCast S1x64 (m ((c : Thread nD τ).loc main_arg15)) shapeCasts_S64_S1x64 := by
  have h : W2 m ρ c (Proc.devRef .tc main_arg15) = m ((c : Thread nD τ).loc main_arg15) :=
    W2_keep m ρ c main_arg15 (by decide) (List.forall_iff_forall_mem.mp (by
    simp only [hostOps0, List.Forall, StableHlo.nullary_writes, StableHlo.unary_writes, StableHlo.binary_writes, StableHlo.ternary_writes, StableHlo.reshape_writes, Finset.mem_singleton]
    repeat' apply And.intro
    all_goals exact StableHlo.devRef_ne_of_ne (by decide)))
  show StableHlo.after hostOps1 (W2 m ρ c) (Proc.devRef .tc main_v42) = _
  after_results
  rw [h]
  rfl

/-! ## The two results at the return -/

theorem W4_v43 (c : Dev nD) : W4 m ρ c (Proc.devRef .tc main_v43) = (dat1 (V3 m ρ) c).arrAt 6 cfg1.N :=
  W4_arr m ρ c 6
theorem W4_v40 (c : Dev nD) : W4 m ρ c (Proc.devRef .tc main_v40)
    = addf (m ((c : Thread nD τ).loc main_arg1)) (Cert.Spec.scat3 (m ((c : Thread nD τ).loc main_arg3)) ((dat0 (V1 m ρ) c).arrAt 12 cfg0.N)) := by
  have h12 : W2 m ρ c (Proc.devRef .tc main_v33_1) = (dat0 (V1 m ρ) c).arrAt 12 cfg0.N := W2_arr m ρ c 12
  rw [W4_of_ne m ρ c main_v40 (by decide)]
  show StableHlo.after hostOps1 (W2 m ρ c) (Proc.devRef .tc main_v40) = _
  after_results
  rw [h12, W2_arg3, W2_arg1]
  rfl

end Cert.KernelIdeal.HostVals

end
-- ==== Proof.LibRowDims.lean ====
/-
  Dimension numbers over symbolic extents, each read in coordinates:
  * a plain contraction `[M, K] × [K, N]` is the sum over the contracted coordinate;
  * a row gather — `x[idx]` of a table `[N, C]` at start indices `[R, 1]` — reads row `idx r` of the table,
    the start index taken signed and clamped into `[0, N − 1]`;
  * a row scatter-add into a table `[N, C]` adds update row `r` at row `idx r` of the table when that row exists
    (the start index taken signed, not clamped) and nowhere otherwise, so the entry `(a, b)` of the result is the
    table's entry plus the sum of the updates' entries `(r, b)` over the rows `r` with `idx r = a`.
-/
import Idealize.ShloMosaic.PureOps.Ideal
import Idealize.ShloMosaic.PureOps.Ideal.Laws
import Idealize.ShloMosaic.Lib.ValueIdx

noncomputable section

open scoped BigOperators

namespace Idealize.ShloMosaic.RowDims

open Idealize.ShloMosaic Idealize.ShloMosaic.ValueIdx

/-! ## A plain contraction -/

/-- The left operand's row coordinate is the output's row, whatever the contraction position. -/
theorem plain_lhsIdx_row {M K N : Nat} (p : Fin M) (q : Fin N) (k : (DotDims.plain M K N).contr.Idx) :
    ((DotDims.plain M K N).lhsIdx (ix2 p q) k 0).val = p.val := rfl

/-- The right operand's column coordinate is the output's column, whatever the contraction position. -/
theorem plain_rhsIdx_col {M K N : Nat} (p : Fin M) (q : Fin N) (k : (DotDims.plain M K N).contr.Idx) :
    ((DotDims.plain M K N).rhsIdx (ix2 p q) k 1).val = q.val := rfl

/-- The contraction sum of `DotDims.plain M K N` at the output entry `(p, q)` runs over the `K` products
    `lhs (p, k) · rhs (k, q)`. -/
theorem plain_sum {M K N : Nat} (lhs : (⟨2, ![M, K]⟩ : Shape).Idx → EReal) (rhs : (⟨2, ![K, N]⟩ : Shape).Idx → EReal)
    (p : Fin M) (q : Fin N) :
    ∑ k : (DotDims.plain M K N).contr.Idx,
        lhs ((DotDims.plain M K N).lhsIdx (ix2 p q) k) * rhs ((DotDims.plain M K N).rhsIdx (ix2 p q) k)
      = ∑ k : Fin K, lhs (ix2 p k) * rhs (ix2 k q) := by
  -- re-index the sum by the one contracted coordinate
  rw [← Equiv.sum_comp (contrEquiv1 (DotDims.plain M K N) K rfl rfl).symm]
  refine Finset.sum_congr rfl fun k _ => ?_
  -- the left operand is read at (p, k): its row from the output, its column the contracted coordinate
  have hl : (DotDims.plain M K N).lhsIdx (ix2 p q) ((contrEquiv1 (DotDims.plain M K N) K rfl rfl).symm k) = ix2 p k := by
    funext a
    refine Fin.ext ?_
    match a with
    | ⟨0, _⟩ => exact plain_lhsIdx_row p q _
    | ⟨1, _⟩ =>
      exact ((DotDims.plain M K N).lhsIdx_val_of_single (cl := 1) rfl _ _).trans
        (contrEquiv1_symm_val (DotDims.plain M K N) K rfl rfl k)
  -- the right operand is read at (k, q): its row the contracted coordinate, its column from the output
  have hr : (DotDims.plain M K N).rhsIdx (ix2 p q) ((contrEquiv1 (DotDims.plain M K N) K rfl rfl).symm k) = ix2 k q := by
    funext a
    refine Fin.ext ?_
    match a with
    | ⟨0, _⟩ =>
      exact ((DotDims.plain M K N).rhsIdx_val_of_single (cr := 0) rfl _ _).trans
        (contrEquiv1_symm_val (DotDims.plain M K N) K rfl rfl k)
    | ⟨1, _⟩ => exact plain_rhsIdx_col p q _
  rw [hl, hr]

/-- A matrix-unit product into the zero accumulator, at the ideal values, entry by entry. -/
theorem matmul_plain_zero_apply {M K N : Nat} {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul (DotDims.plain M K N) prec lhs rhs (constant ⟨2, ![M, N]⟩ .f32 0x00000000#32) (ix2 p q)
      = ∑ k : Fin K, lhs (ix2 p k) * rhs (ix2 k q) := by
  rw [Ideal.matmul_constant_zero_apply]
  exact plain_sum lhs rhs p q

/-- The host's product of the same operands, at the ideal values, entry by entry: the same sum. -/
theorem dotGeneral_plain_apply {M K N : Nat} {φ₁ φ₂ : FTy} (prec : Option ContractPrecision) (sched : HostSchedule)
    (lhs : FVec Ideal ⟨2, ![M, K]⟩ φ₁) (rhs : FVec Ideal ⟨2, ![K, N]⟩ φ₂) (p : Fin M) (q : Fin N) :
    FloatOps.dotGeneral (DotDims.plain M K N) prec sched lhs rhs (ix2 p q)
      = ∑ k : Fin K, lhs (ix2 p k) * rhs (ix2 k q) := by
  rw [Ideal.dotGeneral_apply]
  exact plain_sum lhs rhs p q

/-! ## A row gather -/

/-- The dimension numbers of `x[idx]` for a table `[N, C]`, start indices `[R, 1]` and result `[R, C]`. -/
abbrev rowGather (N C R : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- The table row a start index selects: the index read signed and clamped into `[0, N − 1]`. -/
def clampRow (N : Nat) (hN : 0 < N) {w : Nat} (v : BitVec w) : Fin N := ⟨min v.toInt.toNat (N - 1), by omega⟩

/-- The result entry `(r, c)` reads its one start-index component at `(r, 0)` of the start indices. -/
theorem rowGather_siIdx {N C R : Nat}
    (wf : GatherDims.WF ⟨2, ![N, C]⟩ ⟨2, ![R, 1]⟩ ⟨2, ![R, C]⟩ [1] [0] [] [0] [] 1 ![1, C]) (r : Fin R) (c : Fin C) :
    (rowGather N C R wf).siIdx (ix2 r c) ⟨List.idxOf (0 : Fin 2) (rowGather N C R wf).startIndexMap,
      List.idxOf_lt_length_iff.2 (List.mem_singleton.mpr rfl)⟩ = ix2 r 0 := by
  funext b; refine Fin.ext ?_
  match b with
  | ⟨0, _⟩ => rfl
  | ⟨1, _⟩ => rfl

/-- On the table's row axis (collapsed, named by the start index map) the operand index is the clamped start alone:
    no batching coordinate, no offset coordinate, and the slice size `1` leaves the clamp's upper bound `N − 1`. -/
theorem rowGather_operandIdx_row {N C R w : Nat} (hN : 0 < N)
    (wf : GatherDims.WF ⟨2, ![N, C]⟩ ⟨2, ![R, 1]⟩ ⟨2, ![R, C]⟩ [1] [0] [] [0] [] 1 ![1, C])
    (idx : IVec ⟨2, ![R, 1]⟩ w) (r : Fin R) (c : Fin C) :
    ((rowGather N C R wf).operandIdx (ix2 r c) idx 0).val = (clampRow N hN (idx (ix2 r 0))).val := by
  show (rowGather N C R wf).start (ix2 r c) idx 0 + (rowGather N C R wf).batchCoord (ix2 r c) 0
    + (rowGather N C R wf).offCoord (ix2 r c) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ (rowGather N C R wf).startIndexMap from List.mem_singleton.mpr rfl)]
  rw [rowGather_siIdx wf r c]
  rfl

/-- On the table's column axis (the offset axis, not named by the start index map) the operand index is the offset
    coordinate alone: the result's column. -/
theorem rowGather_operandIdx_col {N C R w : Nat}
    (wf : GatherDims.WF ⟨2, ![N, C]⟩ ⟨2, ![R, 1]⟩ ⟨2, ![R, C]⟩ [1] [0] [] [0] [] 1 ![1, C])
    (idx : IVec ⟨2, ![R, 1]⟩ w) (r : Fin R) (c : Fin C) :
    ((rowGather N C R wf).operandIdx (ix2 r c) idx 1).val = c.val := by
  show (rowGather N C R wf).start (ix2 r c) idx 1 + (rowGather N C R wf).batchCoord (ix2 r c) 1
    + (rowGather N C R wf).offCoord (ix2 r c) 1 = _
  rw [GatherDims.batchCoord_eq_zero _ _ _ List.not_mem_nil]
  unfold GatherDims.start
  rw [dif_neg (show ¬ (1 : Fin 2) ∈ (rowGather N C R wf).startIndexMap from
    fun h => absurd (congrArg Fin.val (List.mem_singleton.mp h)) Nat.one_ne_zero)]
  simp only [Nat.add_zero, Nat.zero_add]
  rfl

/-- The gather read at `(r, c)`: the table at row `clampRow (idx (r, 0))`, column `c`. -/
theorem rowGather_apply {α : Type} {N C R w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (r : Fin R) (c : Fin C) :
    Host.gather (rowGather N C R wf) x idx (ix2 r c) = x (ix2 (clampRow N hN (idx (ix2 r 0))) c) := by
  unfold Host.gather
  congr 1
  funext a
  refine Fin.ext ?_
  match a with
  | ⟨0, _⟩ => exact rowGather_operandIdx_row hN wf idx r c
  | ⟨1, _⟩ => exact rowGather_operandIdx_col wf idx r c

/-! ## A row scatter-add -/

/-- The dimension numbers of `x.at[idx].add(u)` for a table `[N, C]`, scatter indices `[R, 1]` and updates `[R, C]`. -/
abbrev rowScatter (N C R : Nat) (wf : ScatterDims.WF ⟨2, ![N, C]⟩ ⟨2, ![R, 1]⟩ ⟨2, ![R, C]⟩ [1] [0] [0] 1) :
    ScatterDims ⟨2, ![N, C]⟩ ⟨2, ![R, 1]⟩ ⟨2, ![R, C]⟩ where
  updateWindowDims := [1]
  insertedWindowDims := [0]
  scatterDimsToOperandDims := [0]
  indexVectorDim := 1
  wf := wf

/-- The update entry `(r, c)` reads its one start-index component at `(r, 0)` of the scatter indices. -/
theorem rowScatter_siIdx {N C R : Nat}
    (wf : ScatterDims.WF ⟨2, ![N, C]⟩ ⟨2, ![R, 1]⟩ ⟨2, ![R, C]⟩ [1] [0] [0] 1) (r : Fin R) (c : Fin C) :
    (rowScatter N C R wf).siIdx (ix2 r c) ⟨List.idxOf (0 : Fin 2) (rowScatter N C R wf).scatterDimsToOperandDims,
      List.idxOf_lt_length_iff.2 (List.mem_singleton.mpr rfl)⟩ = ix2 r 0 := by
  funext b; refine Fin.ext ?_
  match b with
  | ⟨0, _⟩ => rfl
  | ⟨1, _⟩ => rfl

/-- On the table's row axis the window starts at the scatter index of the update's row, read signed. -/
theorem rowScatter_start_row {N C R w : Nat}
    (wf : ScatterDims.WF ⟨2, ![N, C]⟩ ⟨2, ![R, 1]⟩ ⟨2, ![R, C]⟩ [1] [0] [0] 1)
    (idx : IVec ⟨2, ![R, 1]⟩ w) (r : Fin R) (c : Fin C) :
    (rowScatter N C R wf).start (ix2 r c) idx 0 = (idx (ix2 r 0)).toInt := by
  unfold ScatterDims.start
  rw [dif_pos (show (0 : Fin 2) ∈ (rowScatter N C R wf).scatterDimsToOperandDims from List.mem_singleton.mpr rfl),
    rowScatter_siIdx wf r c]

/-- On the table's column axis, which the scatter index does not name, the window starts at `0`. -/
theorem rowScatter_start_col {N C R w : Nat}
    (wf : ScatterDims.WF ⟨2, ![N, C]⟩ ⟨2, ![R, 1]⟩ ⟨2, ![R, C]⟩ [1] [0] [0] 1)
    (idx : IVec ⟨2, ![R, 1]⟩ w) (r : Fin R) (c : Fin C) :
    (rowScatter N C R wf).start (ix2 r c) idx 1 = 0 := by
  unfold ScatterDims.start
  rw [dif_neg (show ¬ (1 : Fin 2) ∈ (rowScatter N C R wf).scatterDimsToOperandDims from
    fun h => absurd (congrArg Fin.val (List.mem_singleton.mp h)) Nat.one_ne_zero)]

/-- The row axis is an inserted axis: its window coordinate is `0`. -/
theorem rowScatter_window_row {N C R : Nat}
    (wf : ScatterDims.WF ⟨2, ![N, C]⟩ ⟨2, ![R, 1]⟩ ⟨2, ![R, C]⟩ [1] [0] [0] 1) (r : Fin R) (c : Fin C) :
    (rowScatter N C R wf).window (ix2 r c) 0 = 0 := rfl

/-- The column axis carries the update's window axis: its window coordinate is the update's column. -/
theorem rowScatter_window_col {N C R : Nat}
    (wf : ScatterDims.WF ⟨2, ![N, C]⟩ ⟨2, ![R, 1]⟩ ⟨2, ![R, C]⟩ [1] [0] [0] 1) (r : Fin R) (c : Fin C) :
    (rowScatter N C R wf).window (ix2 r c) 1 = c.val := rfl

/-- Update entry `(r, c)` lands on table entry `(a, b)` exactly when its start index, read signed, is `a` and `c = b`. -/
theorem rowScatter_resultIdx?_eq_some_iff {N C R w : Nat}
    (wf : ScatterDims.WF ⟨2, ![N, C]⟩ ⟨2, ![R, 1]⟩ ⟨2, ![R, C]⟩ [1] [0] [0] 1)
    (idx : IVec ⟨2, ![R, 1]⟩ w) (r : Fin R) (c : Fin C) (a : Fin N) (b : Fin C) :
    (rowScatter N C R wf).resultIdx? (ix2 r c) idx = some (ix2 a b) ↔ (idx (ix2 r 0)).toInt = (a.val : Int) ∧ c = b := by
  have hs0 := rowScatter_start_row wf idx r c
  have hs1 := rowScatter_start_col wf idx r c
  have hw0 := rowScatter_window_row wf r c
  have hw1 := rowScatter_window_col wf r c
  unfold ScatterDims.resultIdx?
  constructor
  · -- landed at (a, b): the window is inside the table, and its two coordinates are a and b
    intro h
    split at h
    · rename_i hin
      have hf := Option.some.inj h
      have e0 := congrArg (fun f => (f 0).val) hf
      have e1 := congrArg (fun f => (f 1).val) hf
      simp only [hs0, hs1, hw0, hw1] at e0 e1
      have h0 := hin 0
      rw [hs0, hw0] at h0
      have ea : ((ix2 a b : (⟨2, ![N, C]⟩ : Shape).Idx) 0).val = a.val := rfl
      have eb : ((ix2 a b : (⟨2, ![N, C]⟩ : Shape).Idx) 1).val = b.val := rfl
      rw [ea] at e0
      rw [eb] at e1
      refine ⟨by omega, Fin.ext (by omega)⟩
    · exact absurd h (by simp)
  · -- the start index is a row of the table and the column is kept: the window is inside, at (a, c)
    rintro ⟨hv, rfl⟩
    have hin : ∀ a' : Fin 2, 0 ≤ (rowScatter N C R wf).start (ix2 r c) idx a' + (rowScatter N C R wf).window (ix2 r c) a'
        ∧ (rowScatter N C R wf).start (ix2 r c) idx a' + (rowScatter N C R wf).window (ix2 r c) a' < (⟨2, ![N, C]⟩ : Shape).size a' := by
      intro a'
      match a' with
      | ⟨0, _⟩ =>
        show 0 ≤ (rowScatter N C R wf).start (ix2 r c) idx 0 + (rowScatter N C R wf).window (ix2 r c) 0
          ∧ (rowScatter N C R wf).start (ix2 r c) idx 0 + (rowScatter N C R wf).window (ix2 r c) 0 < (N : Int)
        rw [hs0, hw0, hv]; have := a.isLt; constructor <;> omega
      | ⟨1, _⟩ =>
        show 0 ≤ (rowScatter N C R wf).start (ix2 r c) idx 1 + (rowScatter N C R wf).window (ix2 r c) 1
          ∧ (rowScatter N C R wf).start (ix2 r c) idx 1 + (rowScatter N C R wf).window (ix2 r c) 1 < (C : Int)
        rw [hs1, hw1]; have := c.isLt; constructor <;> omega
    rw [dif_pos hin]
    congr 1
    funext a'
    refine Fin.ext ?_
    match a' with
    | ⟨0, _⟩ =>
      show ((rowScatter N C R wf).start (ix2 r c) idx 0 + (rowScatter N C R wf).window (ix2 r c) 0).toNat = a.val
      rw [hs0, hw0, hv]; omega
    | ⟨1, _⟩ =>
      show ((rowScatter N C R wf).start (ix2 r c) idx 1 + (rowScatter N C R wf).window (ix2 r c) 1).toNat = c.val
      rw [hs1, hw1]; omega

/-- The accumulated table at `(a, b)`: the table's entry plus the updates' entries `(r, b)` over the rows whose start
    index is `a`. -/
theorem rowScatterAdd_apply {N C R w : Nat}
    (wf : ScatterDims.WF ⟨2, ![N, C]⟩ ⟨2, ![R, 1]⟩ ⟨2, ![R, C]⟩ [1] [0] [0] 1)
    (x : (⟨2, ![N, C]⟩ : Shape).Idx → EReal) (idx : IVec ⟨2, ![R, 1]⟩ w) (upd : (⟨2, ![R, C]⟩ : Shape).Idx → EReal)
    (a : Fin N) (b : Fin C) :
    Ideal.hostScatterAdd (rowScatter N C R wf) x idx upd (ix2 a b)
      = x (ix2 a b) + ∑ r : Fin R, if (idx (ix2 r 0)).toInt = (a.val : Int) then upd (ix2 r b) else 0 := by
  unfold Ideal.hostScatterAdd
  congr 1
  -- the sum over the update entries that land on (a, b), as a double sum over their rows and columns
  rw [Finset.sum_filter, sum_idx2]
  refine Finset.sum_congr rfl fun r _ => ?_
  simp only [rowScatter_resultIdx?_eq_some_iff]
  -- row r contributes its entry in column b when its start index is a, and nothing otherwise
  by_cases hv : (idx (ix2 r 0)).toInt = (a.val : Int)
  · simp only [hv, true_and, if_true]
    rw [Finset.sum_ite_eq' Finset.univ b (fun c => upd (ix2 r c)), if_pos (Finset.mem_univ b)]
  · simp only [hv, false_and, if_false]
    exact Finset.sum_const_zero

end Idealize.ShloMosaic.RowDims

end
-- ==== Proof.LibRows.lean ====
/-
  Row blocks of a matrix, and the operations that act row by row.

  `rowsAt o h X` is the block of rows `o, …, o + B − 1` of a matrix `X` of `M` rows.  An operation that computes each
  row of its result from the same row of its operands commutes with taking a row block: a matrix product with a fixed
  right factor (entry `(p, q)` is a sum over the contracted coordinate of row `p` of the left factor), every pointwise
  operation, a concatenation along the columns, a sum along the columns, a broadcast of one row down the rows and a
  broadcast of a one-column matrix across the columns.  Each lemma is stated with the kernel-side spelling of the
  operation on the block and the host-side spelling on the whole matrix, at the ideal values.
-/
import Idealize.ShloMosaic.PureOps.Ideal
import Idealize.ShloMosaic.PureOps.Ideal.Laws
import Idealize.ShloMosaic.Lib.ValueIdx
import Idealize.ShloMosaic.Lib.Pipeline.Value
import Idealize.ShloMosaic.Lib.KernelVsHost
import Idealize.ShloMosaic.Lib.IdealHost
import proofs.«181869_j44959717655304_1_alg».proof.Proof.LibRowDims

noncomputable section

open scoped BigOperators

namespace Idealize.ShloMosaic.RowBlocks

open Idealize.ShloMosaic Idealize.ShloMosaic.ValueIdx Idealize.ShloMosaic.RowDims

variable {α : Type}

/-- Rows `o, …, o + B − 1` of a matrix of `M` rows and `C` columns. -/
def rowsAt {M B C : Nat} (o : Nat) (h : o + B ≤ M) (X : (⟨2, ![M, C]⟩ : Shape).Idx → α) :
    (⟨2, ![B, C]⟩ : Shape).Idx → α :=
  fun j => X (ix2 (⟨o + (j 0).val, by have := idx2_lt0 j; omega⟩ : Fin M) (⟨(j 1).val, idx2_lt1 j⟩ : Fin C))

/-- Entry `(p, q)` of the block is entry `(o + p, q)` of the matrix. -/
theorem rowsAt_apply {M B C : Nat} (o : Nat) (h : o + B ≤ M) (X : (⟨2, ![M, C]⟩ : Shape).Idx → α) (p : Fin B) (q : Fin C) :
    rowsAt o h X (ix2 p q) = X (ix2 (⟨o + p.val, by have := p.isLt; omega⟩ : Fin M) q) := rfl

/-- The block that starts at row 0 and has all the rows is the matrix itself. -/
theorem rowsAt_zero_all {M C : Nat} (X : (⟨2, ![M, C]⟩ : Shape).Idx → α) : rowsAt 0 (by omega) X = X := by
  funext j
  obtain ⟨p, q, rfl⟩ : ∃ (p : Fin M) (q : Fin C), j = ix2 p q := ⟨j 0, j 1, eq_ix2 j⟩
  rw [rowsAt_apply]
  congr 1
  funext a
  refine Fin.ext ?_
  match a with
  | ⟨0, _⟩ => show 0 + p.val = p.val; omega
  | ⟨1, _⟩ => rfl

/-! ## A matrix product with a fixed right factor -/

/-- Row block of a product: the product of the row block. The kernel's product into a zero accumulator on the block,
    the host's product on the whole matrix. -/
theorem matmul_rowsAt {M B K N : Nat} {φ₁ φ₂ : FTy} (o : Nat) (h : o + B ≤ M)
    (dB : DotDims ⟨2, ![B, K]⟩ ⟨2, ![K, N]⟩ ⟨2, ![B, N]⟩) (dM : DotDims ⟨2, ![M, K]⟩ ⟨2, ![K, N]⟩ ⟨2, ![M, N]⟩)
    (hB : dB = DotDims.plain B K N) (hM : dM = DotDims.plain M K N) (prec : Option ContractPrecision)
    (X : FVec Ideal ⟨2, ![M, K]⟩ φ₁) (W : FVec Ideal ⟨2, ![K, N]⟩ φ₂) :
    matmul dB prec (rowsAt o h X) W (constant ⟨2, ![B, N]⟩ .f32 0x00000000#32)
      = rowsAt o h (Host.dotGeneral dM prec X W) := by
  subst hB hM
  funext j
  obtain ⟨p, q, rfl⟩ : ∃ (p : Fin B) (q : Fin N), j = ix2 p q := ⟨j 0, j 1, eq_ix2 j⟩
  rw [rowsAt_apply]
  show FloatOps.matmul (DotDims.plain B K N) prec (rowsAt o h X) W (constant ⟨2, ![B, N]⟩ .f32 0x00000000#32) (ix2 p q)
    = FloatOps.dotGeneral (DotDims.plain M K N) prec _ X W (ix2 _ q)
  rw [matmul_plain_zero_apply, dotGeneral_plain_apply]
  rfl

/-- A matrix product on a row block, both factors first changed to the narrow float format (the identity at
    the ideal values), is the row block of the host's product. -/
theorem matmul_narrow_rowsAt {M B K N : Nat} (o' : Nat) (h' : o' + B ≤ M)
    (dB : DotDims ⟨2, ![B, K]⟩ ⟨2, ![K, N]⟩ ⟨2, ![B, N]⟩) (dM : DotDims ⟨2, ![M, K]⟩ ⟨2, ![K, N]⟩ ⟨2, ![M, N]⟩)
    (hB : dB = DotDims.plain B K N) (hM : dM = DotDims.plain M K N)
    (X : FVec Ideal ⟨2, ![M, K]⟩ .f32) (W : FVec Ideal ⟨2, ![K, N]⟩ .f32) (hb : FTy.bf16.bits < FTy.f32.bits) :
    matmul dB none (truncf .bf16 (rowsAt o' h' X) hb) (truncf .bf16 W hb) (constant ⟨2, ![B, N]⟩ .f32 0x00000000#32)
      = rowsAt o' h' (Host.dotGeneral dM none X W) := by
  subst hB hM
  funext j
  obtain ⟨p, q, rfl⟩ : ∃ (p : Fin B) (q : Fin N), j = ix2 p q := ⟨j 0, j 1, eq_ix2 j⟩
  rw [rowsAt_apply]
  show FloatOps.matmul (DotDims.plain B K N) none (truncf .bf16 (rowsAt o' h' X) hb) (truncf .bf16 W hb) (constant ⟨2, ![B, N]⟩ .f32 0x00000000#32) (ix2 p q)
    = FloatOps.dotGeneral (DotDims.plain M K N) none _ X W (ix2 _ q)
  rw [matmul_plain_zero_apply, dotGeneral_plain_apply]
  rfl

/-- The sigmoid-weighted unit commutes with taking a row block: it acts entry by entry. -/
theorem silu_rowsAt {M B C : Nat} (o : Nat) (h : o + B ≤ M) (X : FVec Ideal ⟨2, ![M, C]⟩ .f32) :
    mulf (rowsAt o h X) (logistic (rowsAt o h X)) = rowsAt o h (mulf X (logistic X)) := rfl

/-- A sum of row blocks is the row block of the sum. -/
theorem addf_rowsAt {M B C : Nat} {φ : FTy} (o : Nat) (h : o + B ≤ M) (X Y : FVec Ideal ⟨2, ![M, C]⟩ φ) :
    addf (rowsAt o h X) (rowsAt o h Y) = rowsAt o h (addf X Y) := rfl

/-- A product, entry by entry, of row blocks is the row block of the product. -/
theorem mulf_rowsAt {M B C : Nat} {φ : FTy} (o : Nat) (h : o + B ≤ M) (X Y : FVec Ideal ⟨2, ![M, C]⟩ φ) :
    mulf (rowsAt o h X) (rowsAt o h Y) = rowsAt o h (mulf X Y) := rfl

/-! ## One row laid down the rows, one column laid across the columns -/

/-- A one-row matrix broadcast down the rows of the block is the row block of its broadcast down all the rows. -/
theorem broadcastTo_row_rowsAt {M B n : Nat} (o : Nat) (h : o + B ≤ M) (y : (⟨2, ![1, n]⟩ : Shape).Idx → α)
    (hb : (⟨2, ![1, n]⟩ : Shape).Broadcasts ⟨2, ![B, n]⟩)
    (hbc : (⟨2, ![1, n]⟩ : Shape).BroadcastsInDim ⟨2, ![M, n]⟩ ![0, 1]) :
    broadcastTo ⟨2, ![B, n]⟩ y hb = rowsAt o h (broadcastInDim ⟨2, ![M, n]⟩ ![0, 1] hbc y) := by
  funext j
  obtain ⟨p, q, rfl⟩ : ∃ (p : Fin B) (q : Fin n), j = ix2 p q := ⟨j 0, j 1, eq_ix2 j⟩
  rw [rowsAt_apply, broadcastInDim_oneRow_apply]
  refine broadcastTo_apply y hb (ix2 p q) (ix2 (0 : Fin 1) q) ?_
  intro a
  match a with
  | ⟨0, _⟩ => rfl
  | ⟨1, _⟩ =>
    show q.val = if n = 1 then 0 else q.val
    split
    · have := q.isLt; omega
    · rfl

/-- A one-column matrix broadcast across `n` columns: the block's broadcast is the row block of the whole's. -/
theorem broadcastTo_col_rowsAt {M B n : Nat} (o : Nat) (h : o + B ≤ M) (Y : (⟨2, ![M, 1]⟩ : Shape).Idx → α)
    (hb : (⟨2, ![B, 1]⟩ : Shape).Broadcasts ⟨2, ![B, n]⟩)
    (hbc : (⟨2, ![M, 1]⟩ : Shape).BroadcastsInDim ⟨2, ![M, n]⟩ ![0, 1]) :
    broadcastTo ⟨2, ![B, n]⟩ (rowsAt o h Y) hb = rowsAt o h (broadcastInDim ⟨2, ![M, n]⟩ ![0, 1] hbc Y) := by
  funext j
  obtain ⟨p, q, rfl⟩ : ∃ (p : Fin B) (q : Fin n), j = ix2 p q := ⟨j 0, j 1, eq_ix2 j⟩
  rw [rowsAt_apply]
  -- the block's broadcast reads column 0 of row p of the block
  have e1 := broadcastTo_apply (rowsAt o h Y) hb (ix2 p q) (ix2 p (0 : Fin 1)) (by
    intro a
    match a with
    | ⟨0, _⟩ =>
      show p.val = if B = 1 then 0 else p.val
      split
      · have := p.isLt; omega
      · rfl
    | ⟨1, _⟩ => rfl)
  -- the whole's broadcast reads column 0 of row o + p of the matrix
  have e2 := broadcastInDim_apply ![0, 1] hbc Y (ix2 (⟨o + p.val, by have := p.isLt; omega⟩ : Fin M) q)
    (ix2 (⟨o + p.val, by have := p.isLt; omega⟩ : Fin M) (0 : Fin 1)) (by
    intro a
    match a with
    | ⟨0, _⟩ =>
      show o + p.val = if M = 1 then 0 else o + p.val
      split
      · have := p.isLt; omega
      · rfl
    | ⟨1, _⟩ => rfl)
  rw [e1, e2, rowsAt_apply]

/-- A vector of `n` entries recast as one row is the vector broadcast along the columns of a one-row matrix. -/
theorem shapeCast_row_eq_broadcastInDim {n : Nat} (x : (⟨1, ![n]⟩ : Shape).Idx → α)
    (h1 : (⟨1, ![n]⟩ : Shape).ShapeCasts ⟨2, ![1, n]⟩) (hd : (⟨1, ![n]⟩ : Shape).BroadcastsInDim ⟨2, ![1, n]⟩ ![1]) :
    shapeCast ⟨2, ![1, n]⟩ x h1 = broadcastInDim ⟨2, ![1, n]⟩ ![1] hd x := by
  funext j
  obtain ⟨r, q, rfl⟩ : ∃ (r : Fin 1) (q : Fin n), j = ix2 r q := ⟨j 0, j 1, eq_ix2 j⟩
  have hr : r = 0 := Subsingleton.elim _ _
  subst hr
  -- entry (0, q) of the one-row matrix has row-major position q
  have e2 := shapeCast_apply x h1 (ix2 (0 : Fin 1) q) (ix1 q) (by
    rw [Shape.rowMajor_val_two, Shape.rowMajor_val_one]; show q.val = 0 * n + q.val; omega)
  have e3 := broadcastInDim_apply ![1] hd x (ix2 (0 : Fin 1) q) (ix1 q) (by
    intro a
    match a with
    | ⟨0, _⟩ =>
      show q.val = if n = 1 then 0 else q.val
      split
      · have := q.isLt; omega
      · rfl)
  exact e2.trans e3.symm

/-! ## The sigmoid-weighted unit -/

/-- `x · σ(x)` with the kernel's one operation for `σ` is the host's spelling `x · (1 / (1 + e^(−x)))`, the ones
    broadcast from a scalar constant. -/
theorem silu_eq_host {s : Shape} (x : FVec Ideal s .f32) (hb : (⟨0, ![]⟩ : Shape).BroadcastsInDim s ![]) :
    mulf x (logistic x)
      = mulf x (Host.divf (broadcastInDim s ![] hb (constant (F := Ideal) ⟨0, ![]⟩ .f32 0x3F800000#32))
          (addf (broadcastInDim s ![] hb (constant (F := Ideal) ⟨0, ![]⟩ .f32 0x3F800000#32)) (Host.exp (Host.negf x)))) := by
  funext i
  -- both sides at an index: x · (1 / (1 + e^(−x))), the constant word being the number one
  show x i * Ideal.logistic (x i)
    = x i * Ideal.div (broadcastInDim s ![] hb (constant (F := Ideal) ⟨0, ![]⟩ .f32 0x3F800000#32) i)
        (broadcastInDim s ![] hb (constant (F := Ideal) ⟨0, ![]⟩ .f32 0x3F800000#32) i + Host.exp (Host.negf x) i)
  rw [broadcastInDim_scalar_apply, constant_apply, Idealize.ShloMosaic.Ideal.ofBits_one_f32]
  rfl

end Idealize.ShloMosaic.RowBlocks

end
-- ==== Proof.KernelIdealBlocks.lean ====
/-
  The windows' blocks of the two grid regions as row blocks of their arrays, and each result array as the one matrix
  whose row block at every grid point is what that point writes back.

  Region 0 walks 250 points; point `t` reads rows `3200 t … 3200 t + 3199` of its three edge arrays and the whole of
  each weight array, and writes the same rows of its two result arrays.  Region 1 walks 10 points over blocks of 5000
  node rows.  The blocks tile the rows, so a result array is determined by its row blocks.
-/
import proofs.«181869_j44959717655304_1_alg».proof.Proof.Gen.KernelIdeal.Frame
import proofs.«181869_j44959717655304_1_alg».proof.Proof.LibRows

set_option maxRecDepth 16384

noncomputable section

namespace Cert.KernelIdeal.Blocks

open Idealize.ShloMosaic Idealize.ShloMosaic.TcCoe Idealize.SL.Sem Idealize.ShloMosaic.ValueIdx Idealize.ShloMosaic.RowBlocks
open Cert.KernelIdeal Cert.KernelIdeal.Gen

variable (V : (c : Dev nD) → (b : Ref sig .tc) → Buf (Elt Ideal) ((c : Thread nD τ).loc b))

/-- Point `t`'s rows lie inside the edge arrays. -/
theorem le0 (t : Fin cfg0.N) : 3200 * t.val + 3200 ≤ 800000 := by
  have h : t.val < grid0.N := t.isLt
  rw [N_0] at h
  omega
/-- Point `t`'s rows lie inside the node arrays. -/
theorem le1 (t : Fin cfg1.N) : 5000 * t.val + 5000 ≤ 50000 := by
  have h : t.val < grid1.N := t.isLt
  rw [N_1] at h
  omega

/-! ## Region 0: the block index of each window at point `t` -/

/-- Window 0's block index at point `t` is `(t, 0)`: row block `t` of the one column block. -/
theorem idx0_0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)
/-- Window 1's block index at point `t` is `(t, 0)`: row block `t` of the one column block. -/
theorem idx0_1 : ∀ t : Fin cfg0.N, win0_1.index t (0 : Fin 2) = t.val ∧ win0_1.index t (1 : Fin 2) = 0 :=
  (by decide +kernel : ∀ t : Fin grid0.N, win0_1.index t (0 : Fin 2) = t.val ∧ win0_1.index t (1 : Fin 2) = 0)
/-- Window 2's block index at point `t` is `(t, 0)`: row block `t` of the one column block. -/
theorem idx0_2 : ∀ t : Fin cfg0.N, win0_2.index t (0 : Fin 2) = t.val ∧ win0_2.index t (1 : Fin 2) = 0 :=
  (by decide +kernel : ∀ t : Fin grid0.N, win0_2.index t (0 : Fin 2) = t.val ∧ win0_2.index t (1 : Fin 2) = 0)
/-- Window 3's block index is `(0, 0)` at every point: its one block is the whole array. -/
theorem idx0_3 : ∀ t : Fin cfg0.N, win0_3.index t (0 : Fin 2) = 0 ∧ win0_3.index t (1 : Fin 2) = 0 :=
  (by decide +kernel : ∀ t : Fin grid0.N, win0_3.index t (0 : Fin 2) = 0 ∧ win0_3.index t (1 : Fin 2) = 0)
/-- Window 4's block index is `(0, 0)` at every point: its one block is the whole array. -/
theorem idx0_4 : ∀ t : Fin cfg0.N, win0_4.index t (0 : Fin 2) = 0 ∧ win0_4.index t (1 : Fin 2) = 0 :=
  (by decide +kernel : ∀ t : Fin grid0.N, win0_4.index t (0 : Fin 2) = 0 ∧ win0_4.index t (1 : Fin 2) = 0)
/-- Window 5's block index is `(0, 0)` at every point: its one block is the whole array. -/
theorem idx0_5 : ∀ t : Fin cfg0.N, win0_5.index t (0 : Fin 2) = 0 ∧ win0_5.index t (1 : Fin 2) = 0 :=
  (by decide +kernel : ∀ t : Fin grid0.N, win0_5.index t (0 : Fin 2) = 0 ∧ win0_5.index t (1 : Fin 2) = 0)
/-- Window 6's block index is `(0, 0)` at every point: its one block is the whole array. -/
theorem idx0_6 : ∀ t : Fin cfg0.N, win0_6.index t (0 : Fin 2) = 0 ∧ win0_6.index t (1 : Fin 2) = 0 :=
  (by decide +kernel : ∀ t : Fin grid0.N, win0_6.index t (0 : Fin 2) = 0 ∧ win0_6.index t (1 : Fin 2) = 0)
/-- Window 7's block index is `(0, 0)` at every point: its one block is the whole array. -/
theorem idx0_7 : ∀ t : Fin cfg0.N, win0_7.index t (0 : Fin 2) = 0 ∧ win0_7.index t (1 : Fin 2) = 0 :=
  (by decide +kernel : ∀ t : Fin grid0.N, win0_7.index t (0 : Fin 2) = 0 ∧ win0_7.index t (1 : Fin 2) = 0)
/-- Window 8's block index is `(0, 0)` at every point: its one block is the whole array. -/
theorem idx0_8 : ∀ t : Fin cfg0.N, win0_8.index t (0 : Fin 2) = 0 ∧ win0_8.index t (1 : Fin 2) = 0 :=
  (by decide +kernel : ∀ t : Fin grid0.N, win0_8.index t (0 : Fin 2) = 0 ∧ win0_8.index t (1 : Fin 2) = 0)
/-- Window 9's block index is `(0, 0)` at every point: its one block is the whole array. -/
theorem idx0_9 : ∀ t : Fin cfg0.N, win0_9.index t (0 : Fin 2) = 0 ∧ win0_9.index t (1 : Fin 2) = 0 :=
  (by decide +kernel : ∀ t : Fin grid0.N, win0_9.index t (0 : Fin 2) = 0 ∧ win0_9.index t (1 : Fin 2) = 0)
/-- Window 10's block index is `(0, 0)` at every point: its one block is the whole array. -/
theorem idx0_10 : ∀ t : Fin cfg0.N, win0_10.index t (0 : Fin 2) = 0 ∧ win0_10.index t (1 : Fin 2) = 0 :=
  (by decide +kernel : ∀ t : Fin grid0.N, win0_10.index t (0 : Fin 2) = 0 ∧ win0_10.index t (1 : Fin 2) = 0)
/-- Window 11's block index at point `t` is `(t, 0)`: row block `t` of the one column block. -/
theorem idx0_11 : ∀ t : Fin cfg0.N, win0_11.index t (0 : Fin 2) = t.val ∧ win0_11.index t (1 : Fin 2) = 0 :=
  (by decide +kernel : ∀ t : Fin grid0.N, win0_11.index t (0 : Fin 2) = t.val ∧ win0_11.index t (1 : Fin 2) = 0)
/-- Window 12's block index at point `t` is `(t, 0)`: row block `t` of the one column block. -/
theorem idx0_12 : ∀ t : Fin cfg0.N, win0_12.index t (0 : Fin 2) = t.val ∧ win0_12.index t (1 : Fin 2) = 0 :=
  (by decide +kernel : ∀ t : Fin grid0.N, win0_12.index t (0 : Fin 2) = t.val ∧ win0_12.index t (1 : Fin 2) = 0)

/-! ## Region 0: what each window stages at point `t` -/

theorem iblk0_0 (c : Dev nD) (t : Fin cfg0.N) : (iblk0 V c 0 t : Vec Ideal S3200x64 .f32) = rowsAt (3200 * t.val) (le0 t) (V c main_v6 : Vec Ideal S800000x64 .f32) := by
  funext j
  obtain ⟨p, q, rfl⟩ : ∃ (p : Fin 3200) (q : Fin 64), j = ix2 p q := ⟨j 0, j 1, eq_ix2 j⟩
  rw [rowsAt_apply]
  show V c main_v6 (((cfg0.win 0).blk t).view.emb (ix2 p q)) = V c main_v6 (ix2 _ q)
  refine congrArg _ ?_
  obtain ⟨e0, e1⟩ := idx0_0 t
  funext a
  refine Fin.ext ?_
  match a with
  | ⟨0, _⟩ =>
    -- row coordinate: block index × block rows + row inside the block
    show win0_0.index t (0 : Fin 2) * 3200 + 1 * p.val = 3200 * t.val + p.val
    omega
  | ⟨1, _⟩ =>
    -- column coordinate: the one column block has index 0
    show win0_0.index t (1 : Fin 2) * 64 + 1 * q.val = q.val
    omega
theorem iblk0_1 (c : Dev nD) (t : Fin cfg0.N) : (iblk0 V c 1 t : Vec Ideal S3200x64 .f32) = rowsAt (3200 * t.val) (le0 t) (V c main_v13 : Vec Ideal S800000x64 .f32) := by
  funext j
  obtain ⟨p, q, rfl⟩ : ∃ (p : Fin 3200) (q : Fin 64), j = ix2 p q := ⟨j 0, j 1, eq_ix2 j⟩
  rw [rowsAt_apply]
  show V c main_v13 (((cfg0.win 1).blk t).view.emb (ix2 p q)) = V c main_v13 (ix2 _ q)
  refine congrArg _ ?_
  obtain ⟨e0, e1⟩ := idx0_1 t
  funext a
  refine Fin.ext ?_
  match a with
  | ⟨0, _⟩ =>
    -- row coordinate: block index × block rows + row inside the block
    show win0_1.index t (0 : Fin 2) * 3200 + 1 * p.val = 3200 * t.val + p.val
    omega
  | ⟨1, _⟩ =>
    -- column coordinate: the one column block has index 0
    show win0_1.index t (1 : Fin 2) * 64 + 1 * q.val = q.val
    omega
theorem iblk0_2 (c : Dev nD) (t : Fin cfg0.N) : (iblk0 V c 2 t : Vec Ideal S3200x3 .f32) = rowsAt (3200 * t.val) (le0 t) (V c main_v28 : Vec Ideal S800000x3 .f32) := by
  funext j
  obtain ⟨p, q, rfl⟩ : ∃ (p : Fin 3200) (q : Fin 3), j = ix2 p q := ⟨j 0, j 1, eq_ix2 j⟩
  rw [rowsAt_apply]
  show V c main_v28 (((cfg0.win 2).blk t).view.emb (ix2 p q)) = V c main_v28 (ix2 _ q)
  refine congrArg _ ?_
  obtain ⟨e0, e1⟩ := idx0_2 t
  funext a
  refine Fin.ext ?_
  match a with
  | ⟨0, _⟩ =>
    -- row coordinate: block index × block rows + row inside the block
    show win0_2.index t (0 : Fin 2) * 3200 + 1 * p.val = 3200 * t.val + p.val
    omega
  | ⟨1, _⟩ =>
    -- column coordinate: the one column block has index 0
    show win0_2.index t (1 : Fin 2) * 3 + 1 * q.val = q.val
    omega
theorem iblk0_3 (c : Dev nD) (t : Fin cfg0.N) : (iblk0 V c 3 t : Vec Ideal S129x64 .f32) = V c main_arg4 := by
  funext j
  show V c main_arg4 (((cfg0.win 3).blk t).view.emb j) = V c main_arg4 j
  refine congrArg _ ?_
  obtain ⟨e0, e1⟩ := idx0_3 t
  funext a
  refine Fin.ext ?_
  match a with
  | ⟨0, _⟩ =>
    show win0_3.index t (0 : Fin 2) * 129 + 1 * (j 0).val = (j 0).val
    omega
  | ⟨1, _⟩ =>
    show win0_3.index t (1 : Fin 2) * 64 + 1 * (j 1).val = (j 1).val
    omega
theorem iblk0_4 (c : Dev nD) (t : Fin cfg0.N) : (iblk0 V c 4 t : Vec Ideal S1x64 .f32) = V c main_v29 := by
  funext j
  show V c main_v29 (((cfg0.win 4).blk t).view.emb j) = V c main_v29 j
  refine congrArg _ ?_
  obtain ⟨e0, e1⟩ := idx0_4 t
  funext a
  refine Fin.ext ?_
  match a with
  | ⟨0, _⟩ =>
    show win0_4.index t (0 : Fin 2) * 1 + 1 * (j 0).val = (j 0).val
    omega
  | ⟨1, _⟩ =>
    show win0_4.index t (1 : Fin 2) * 64 + 1 * (j 1).val = (j 1).val
    omega
theorem iblk0_5 (c : Dev nD) (t : Fin cfg0.N) : (iblk0 V c 5 t : Vec Ideal S64x64 .f32) = V c main_arg6 := by
  funext j
  show V c main_arg6 (((cfg0.win 5).blk t).view.emb j) = V c main_arg6 j
  refine congrArg _ ?_
  obtain ⟨e0, e1⟩ := idx0_5 t
  funext a
  refine Fin.ext ?_
  match a with
  | ⟨0, _⟩ =>
    show win0_5.index t (0 : Fin 2) * 64 + 1 * (j 0).val = (j 0).val
    omega
  | ⟨1, _⟩ =>
    show win0_5.index t (1 : Fin 2) * 64 + 1 * (j 1).val = (j 1).val
    omega
theorem iblk0_6 (c : Dev nD) (t : Fin cfg0.N) : (iblk0 V c 6 t : Vec Ideal S1x64 .f32) = V c main_v30 := by
  funext j
  show V c main_v30 (((cfg0.win 6).blk t).view.emb j) = V c main_v30 j
  refine congrArg _ ?_
  obtain ⟨e0, e1⟩ := idx0_6 t
  funext a
  refine Fin.ext ?_
  match a with
  | ⟨0, _⟩ =>
    show win0_6.index t (0 : Fin 2) * 1 + 1 * (j 0).val = (j 0).val
    omega
  | ⟨1, _⟩ =>
    show win0_6.index t (1 : Fin 2) * 64 + 1 * (j 1).val = (j 1).val
    omega
theorem iblk0_7 (c : Dev nD) (t : Fin cfg0.N) : (iblk0 V c 7 t : Vec Ideal S64x64 .f32) = V c main_arg8 := by
  funext j
  show V c main_arg8 (((cfg0.win 7).blk t).view.emb j) = V c main_arg8 j
  refine congrArg _ ?_
  obtain ⟨e0, e1⟩ := idx0_7 t
  funext a
  refine Fin.ext ?_
  match a with
  | ⟨0, _⟩ =>
    show win0_7.index t (0 : Fin 2) * 64 + 1 * (j 0).val = (j 0).val
    omega
  | ⟨1, _⟩ =>
    show win0_7.index t (1 : Fin 2) * 64 + 1 * (j 1).val = (j 1).val
    omega
theorem iblk0_8 (c : Dev nD) (t : Fin cfg0.N) : (iblk0 V c 8 t : Vec Ideal S1x64 .f32) = V c main_v31 := by
  funext j
  show V c main_v31 (((cfg0.win 8).blk t).view.emb j) = V c main_v31 j
  refine congrArg _ ?_
  obtain ⟨e0, e1⟩ := idx0_8 t
  funext a
  refine Fin.ext ?_
  match a with
  | ⟨0, _⟩ =>
    show win0_8.index t (0 : Fin 2) * 1 + 1 * (j 0).val = (j 0).val
    omega
  | ⟨1, _⟩ =>
    show win0_8.index t (1 : Fin 2) * 64 + 1 * (j 1).val = (j 1).val
    omega
theorem iblk0_9 (c : Dev nD) (t : Fin cfg0.N) : (iblk0 V c 9 t : Vec Ideal S64x1 .f32) = V c main_arg10 := by
  funext j
  show V c main_arg10 (((cfg0.win 9).blk t).view.emb j) = V c main_arg10 j
  refine congrArg _ ?_
  obtain ⟨e0, e1⟩ := idx0_9 t
  funext a
  refine Fin.ext ?_
  match a with
  | ⟨0, _⟩ =>
    show win0_9.index t (0 : Fin 2) * 64 + 1 * (j 0).val = (j 0).val
    omega
  | ⟨1, _⟩ =>
    show win0_9.index t (1 : Fin 2) * 1 + 1 * (j 1).val = (j 1).val
    omega
theorem iblk0_10 (c : Dev nD) (t : Fin cfg0.N) : (iblk0 V c 10 t : Vec Ideal S1x1 .f32) = V c main_v32 := by
  funext j
  show V c main_v32 (((cfg0.win 10).blk t).view.emb j) = V c main_v32 j
  refine congrArg _ ?_
  obtain ⟨e0, e1⟩ := idx0_10 t
  funext a
  refine Fin.ext ?_
  match a with
  | ⟨0, _⟩ =>
    show win0_10.index t (0 : Fin 2) * 1 + 1 * (j 0).val = (j 0).val
    omega
  | ⟨1, _⟩ =>
    show win0_10.index t (1 : Fin 2) * 1 + 1 * (j 1).val = (j 1).val
    omega

/-! ## Region 0: a result array from its row blocks -/

/-- Point `t`'s block of window 11, read off a matrix `G`, is `G`'s row block at `3200 t`. -/
theorem read_blk0_11 (G : Vec Ideal S800000x64 .f32) (t : Fin cfg0.N) :
    (((cfg0.win 11).blk t).view.read (Elt Ideal) G : Vec Ideal S3200x64 .f32) = rowsAt (3200 * t.val) (le0 t) G := by
  funext j
  obtain ⟨p, q, rfl⟩ : ∃ (p : Fin 3200) (q : Fin 64), j = ix2 p q := ⟨j 0, j 1, eq_ix2 j⟩
  rw [rowsAt_apply]
  show G (((cfg0.win 11).blk t).view.emb (ix2 p q)) = G (ix2 _ q)
  refine congrArg _ ?_
  obtain ⟨e0, e1⟩ := idx0_11 t
  funext a
  refine Fin.ext ?_
  match a with
  | ⟨0, _⟩ =>
    show win0_11.index t (0 : Fin 2) * 3200 + 1 * p.val = 3200 * t.val + p.val
    omega
  | ⟨1, _⟩ =>
    show win0_11.index t (1 : Fin 2) * 64 + 1 * q.val = q.val
    omega

/-- An index of the array is in point `t`'s block iff each coordinate is in the block's range on its axis. -/
theorem mem_blk0_11 (t : Fin cfg0.N) (i : S800000x64.Idx) :
    i ∈ ((cfg0.win 11).blk t).view.set ↔ ∀ a : Fin 2, win0_11.index t a * S3200x64.size a ≤ (i a).val ∧ (i a).val < win0_11.index t a * S3200x64.size a + S3200x64.size a := by
  show i ∈ ((View.whole main_v33_0).slice (win0_11.rect t)).set ↔ _
  rw [View.set_slice_whole, Rect.mem_set_unit]
  exact Iff.rfl

/-- The row blocks tile the rows: row `r` of the array lies in the block of point `r / 3200`. -/
theorem rows_cover0_11 (i : S800000x64.Idx) :
    ∃ t : Fin cfg0.N, (cfg0.win 11).flush t = true ∧ i ∈ ((cfg0.win 11).blk t).view.set := by
  have hi0 : (i 0).val < 800000 := (i 0).isLt
  have hi1 : (i 1).val < 64 := (i 1).isLt
  obtain ⟨t, ht⟩ : ∃ t : Fin cfg0.N, t.val = (i 0).val / 3200 :=
    ⟨⟨(i 0).val / 3200, by show _ < grid0.N; rw [N_0]; omega⟩, rfl⟩
  obtain ⟨e0, e1⟩ := idx0_11 t
  refine ⟨t, flush0_11 t, ?_⟩
  rw [mem_blk0_11]
  intro a
  match a with
  | ⟨0, _⟩ =>
    show win0_11.index t (0 : Fin 2) * 3200 ≤ (i 0).val ∧ (i 0).val < win0_11.index t (0 : Fin 2) * 3200 + 3200
    omega
  | ⟨1, _⟩ =>
    show win0_11.index t (1 : Fin 2) * 64 ≤ (i 1).val ∧ (i 1).val < win0_11.index t (1 : Fin 2) * 64 + 64
    omega

/-- If every point leaves in window 11's buffer the row block of one matrix `G`, the array ends as `G`. -/
theorem arrAt0_11 (c : Dev nD) (G : Vec Ideal S800000x64 .f32)
    (hG : ∀ t : Fin cfg0.N, ((dat0 V c).after 11 t : Vec Ideal S3200x64 .f32) = rowsAt (3200 * t.val) (le0 t) G) :
    (dat0 V c).arrAt 11 cfg0.N = G := by
  -- every point writes back its row block of `G`, and the row blocks cover the array
  refine (dat0 V c).arrAt_eq_of_cover 11 G (fun t _ => ?_) rows_cover0_11
  -- the block is not clipped, so what is written back is all of what the body left
  show (cfg0.win 11).cut (grid0.coords t) ((dat0 V c).after 11 t) = _
  rw [hG t]
  exact (read_blk0_11 G t).symm

/-- Point `t`'s block of window 12, read off a matrix `G`, is `G`'s row block at `3200 t`. -/
theorem read_blk0_12 (G : Vec Ideal S800000x3 .f32) (t : Fin cfg0.N) :
    (((cfg0.win 12).blk t).view.read (Elt Ideal) G : Vec Ideal S3200x3 .f32) = rowsAt (3200 * t.val) (le0 t) G := by
  funext j
  obtain ⟨p, q, rfl⟩ : ∃ (p : Fin 3200) (q : Fin 3), j = ix2 p q := ⟨j 0, j 1, eq_ix2 j⟩
  rw [rowsAt_apply]
  show G (((cfg0.win 12).blk t).view.emb (ix2 p q)) = G (ix2 _ q)
  refine congrArg _ ?_
  obtain ⟨e0, e1⟩ := idx0_12 t
  funext a
  refine Fin.ext ?_
  match a with
  | ⟨0, _⟩ =>
    show win0_12.index t (0 : Fin 2) * 3200 + 1 * p.val = 3200 * t.val + p.val
    omega
  | ⟨1, _⟩ =>
    show win0_12.index t (1 : Fin 2) * 3 + 1 * q.val = q.val
    omega

/-- An index of the array is in point `t`'s block iff each coordinate is in the block's range on its axis. -/
theorem mem_blk0_12 (t : Fin cfg0.N) (i : S800000x3.Idx) :
    i ∈ ((cfg0.win 12).blk t).view.set ↔ ∀ a : Fin 2, win0_12.index t a * S3200x3.size a ≤ (i a).val ∧ (i a).val < win0_12.index t a * S3200x3.size a + S3200x3.size a := by
  show i ∈ ((View.whole main_v33_1).slice (win0_12.rect t)).set ↔ _
  rw [View.set_slice_whole, Rect.mem_set_unit]
  exact Iff.rfl

/-- The row blocks tile the rows: row `r` of the array lies in the block of point `r / 3200`. -/
theorem rows_cover0_12 (i : S800000x3.Idx) :
    ∃ t : Fin cfg0.N, (cfg0.win 12).flush t = true ∧ i ∈ ((cfg0.win 12).blk t).view.set := by
  have hi0 : (i 0).val < 800000 := (i 0).isLt
  have hi1 : (i 1).val < 3 := (i 1).isLt
  obtain ⟨t, ht⟩ : ∃ t : Fin cfg0.N, t.val = (i 0).val / 3200 :=
    ⟨⟨(i 0).val / 3200, by show _ < grid0.N; rw [N_0]; omega⟩, rfl⟩
  obtain ⟨e0, e1⟩ := idx0_12 t
  refine ⟨t, flush0_12 t, ?_⟩
  rw [mem_blk0_12]
  intro a
  match a with
  | ⟨0, _⟩ =>
    show win0_12.index t (0 : Fin 2) * 3200 ≤ (i 0).val ∧ (i 0).val < win0_12.index t (0 : Fin 2) * 3200 + 3200
    omega
  | ⟨1, _⟩ =>
    show win0_12.index t (1 : Fin 2) * 3 ≤ (i 1).val ∧ (i 1).val < win0_12.index t (1 : Fin 2) * 3 + 3
    omega

/-- The same for window 12 (three columns). -/
theorem arrAt0_12 (c : Dev nD) (G : Vec Ideal S800000x3 .f32)
    (hG : ∀ t : Fin cfg0.N, ((dat0 V c).after 12 t : Vec Ideal S3200x3 .f32) = rowsAt (3200 * t.val) (le0 t) G) :
    (dat0 V c).arrAt 12 cfg0.N = G := by
  -- every point writes back its row block of `G`, and the row blocks cover the array
  refine (dat0 V c).arrAt_eq_of_cover 12 G (fun t _ => ?_) rows_cover0_12
  -- the block is not clipped, so what is written back is all of what the body left
  show (cfg0.win 12).cut (grid0.coords t) ((dat0 V c).after 12 t) = _
  rw [hG t]
  exact (read_blk0_12 G t).symm

/-! ## Region 1 -/

/-- Window 0's block index at point `t` is `(t, 0)`: row block `t` of the one column block. -/
theorem idx1_0 : ∀ t : Fin cfg1.N, win1_0.index t (0 : Fin 2) = t.val ∧ win1_0.index t (1 : Fin 2) = 0 :=
  (by decide +kernel : ∀ t : Fin grid1.N, win1_0.index t (0 : Fin 2) = t.val ∧ win1_0.index t (1 : Fin 2) = 0)
/-- Window 1's block index at point `t` is `(t, 0)`: row block `t` of the one column block. -/
theorem idx1_1 : ∀ t : Fin cfg1.N, win1_1.index t (0 : Fin 2) = t.val ∧ win1_1.index t (1 : Fin 2) = 0 :=
  (by decide +kernel : ∀ t : Fin grid1.N, win1_1.index t (0 : Fin 2) = t.val ∧ win1_1.index t (1 : Fin 2) = 0)
/-- Window 2's block index is `(0, 0)` at every point: its one block is the whole array. -/
theorem idx1_2 : ∀ t : Fin cfg1.N, win1_2.index t (0 : Fin 2) = 0 ∧ win1_2.index t (1 : Fin 2) = 0 :=
  (by decide +kernel : ∀ t : Fin grid1.N, win1_2.index t (0 : Fin 2) = 0 ∧ win1_2.index t (1 : Fin 2) = 0)
/-- Window 3's block index is `(0, 0)` at every point: its one block is the whole array. -/
theorem idx1_3 : ∀ t : Fin cfg1.N, win1_3.index t (0 : Fin 2) = 0 ∧ win1_3.index t (1 : Fin 2) = 0 :=
  (by decide +kernel : ∀ t : Fin grid1.N, win1_3.index t (0 : Fin 2) = 0 ∧ win1_3.index t (1 : Fin 2) = 0)
/-- Window 4's block index is `(0, 0)` at every point: its one block is the whole array. -/
theorem idx1_4 : ∀ t : Fin cfg1.N, win1_4.index t (0 : Fin 2) = 0 ∧ win1_4.index t (1 : Fin 2) = 0 :=
  (by decide +kernel : ∀ t : Fin grid1.N, win1_4.index t (0 : Fin 2) = 0 ∧ win1_4.index t (1 : Fin 2) = 0)
/-- Window 5's block index is `(0, 0)` at every point: its one block is the whole array. -/
theorem idx1_5 : ∀ t : Fin cfg1.N, win1_5.index t (0 : Fin 2) = 0 ∧ win1_5.index t (1 : Fin 2) = 0 :=
  (by decide +kernel : ∀ t : Fin grid1.N, win1_5.index t (0 : Fin 2) = 0 ∧ win1_5.index t (1 : Fin 2) = 0)
/-- Window 6's block index at point `t` is `(t, 0)`: row block `t` of the one column block. -/
theorem idx1_6 : ∀ t : Fin cfg1.N, win1_6.index t (0 : Fin 2) = t.val ∧ win1_6.index t (1 : Fin 2) = 0 :=
  (by decide +kernel : ∀ t : Fin grid1.N, win1_6.index t (0 : Fin 2) = t.val ∧ win1_6.index t (1 : Fin 2) = 0)

theorem iblk1_0 (c : Dev nD) (t : Fin cfg1.N) : (iblk1 V c 0 t : Vec Ideal S5000x64 .f32) = rowsAt (5000 * t.val) (le1 t) (V c main_arg0 : Vec Ideal S50000x64 .f32) := by
  funext j
  obtain ⟨p, q, rfl⟩ : ∃ (p : Fin 5000) (q : Fin 64), j = ix2 p q := ⟨j 0, j 1, eq_ix2 j⟩
  rw [rowsAt_apply]
  show V c main_arg0 (((cfg1.win 0).blk t).view.emb (ix2 p q)) = V c main_arg0 (ix2 _ q)
  refine congrArg _ ?_
  obtain ⟨e0, e1⟩ := idx1_0 t
  funext a
  refine Fin.ext ?_
  match a with
  | ⟨0, _⟩ =>
    -- row coordinate: block index × block rows + row inside the block
    show win1_0.index t (0 : Fin 2) * 5000 + 1 * p.val = 5000 * t.val + p.val
    omega
  | ⟨1, _⟩ =>
    -- column coordinate: the one column block has index 0
    show win1_0.index t (1 : Fin 2) * 64 + 1 * q.val = q.val
    omega
theorem iblk1_1 (c : Dev nD) (t : Fin cfg1.N) : (iblk1 V c 1 t : Vec Ideal S5000x64 .f32) = rowsAt (5000 * t.val) (le1 t) (V c main_v39 : Vec Ideal S50000x64 .f32) := by
  funext j
  obtain ⟨p, q, rfl⟩ : ∃ (p : Fin 5000) (q : Fin 64), j = ix2 p q := ⟨j 0, j 1, eq_ix2 j⟩
  rw [rowsAt_apply]
  show V c main_v39 (((cfg1.win 1).blk t).view.emb (ix2 p q)) = V c main_v39 (ix2 _ q)
  refine congrArg _ ?_
  obtain ⟨e0, e1⟩ := idx1_1 t
  funext a
  refine Fin.ext ?_
  match a with
  | ⟨0, _⟩ =>
    -- row coordinate: block index × block rows + row inside the block
    show win1_1.index t (0 : Fin 2) * 5000 + 1 * p.val = 5000 * t.val + p.val
    omega
  | ⟨1, _⟩ =>
    -- column coordinate: the one column block has index 0
    show win1_1.index t (1 : Fin 2) * 64 + 1 * q.val = q.val
    omega
theorem iblk1_2 (c : Dev nD) (t : Fin cfg1.N) : (iblk1 V c 2 t : Vec Ideal S128x64 .f32) = V c main_arg12 := by
  funext j
  show V c main_arg12 (((cfg1.win 2).blk t).view.emb j) = V c main_arg12 j
  refine congrArg _ ?_
  obtain ⟨e0, e1⟩ := idx1_2 t
  funext a
  refine Fin.ext ?_
  match a with
  | ⟨0, _⟩ =>
    show win1_2.index t (0 : Fin 2) * 128 + 1 * (j 0).val = (j 0).val
    omega
  | ⟨1, _⟩ =>
    show win1_2.index t (1 : Fin 2) * 64 + 1 * (j 1).val = (j 1).val
    omega
theorem iblk1_3 (c : Dev nD) (t : Fin cfg1.N) : (iblk1 V c 3 t : Vec Ideal S1x64 .f32) = V c main_v41 := by
  funext j
  show V c main_v41 (((cfg1.win 3).blk t).view.emb j) = V c main_v41 j
  refine congrArg _ ?_
  obtain ⟨e0, e1⟩ := idx1_3 t
  funext a
  refine Fin.ext ?_
  match a with
  | ⟨0, _⟩ =>
    show win1_3.index t (0 : Fin 2) * 1 + 1 * (j 0).val = (j 0).val
    omega
  | ⟨1, _⟩ =>
    show win1_3.index t (1 : Fin 2) * 64 + 1 * (j 1).val = (j 1).val
    omega
theorem iblk1_4 (c : Dev nD) (t : Fin cfg1.N) : (iblk1 V c 4 t : Vec Ideal S64x64 .f32) = V c main_arg14 := by
  funext j
  show V c main_arg14 (((cfg1.win 4).blk t).view.emb j) = V c main_arg14 j
  refine congrArg _ ?_
  obtain ⟨e0, e1⟩ := idx1_4 t
  funext a
  refine Fin.ext ?_
  match a with
  | ⟨0, _⟩ =>
    show win1_4.index t (0 : Fin 2) * 64 + 1 * (j 0).val = (j 0).val
    omega
  | ⟨1, _⟩ =>
    show win1_4.index t (1 : Fin 2) * 64 + 1 * (j 1).val = (j 1).val
    omega
theorem iblk1_5 (c : Dev nD) (t : Fin cfg1.N) : (iblk1 V c 5 t : Vec Ideal S1x64 .f32) = V c main_v42 := by
  funext j
  show V c main_v42 (((cfg1.win 5).blk t).view.emb j) = V c main_v42 j
  refine congrArg _ ?_
  obtain ⟨e0, e1⟩ := idx1_5 t
  funext a
  refine Fin.ext ?_
  match a with
  | ⟨0, _⟩ =>
    show win1_5.index t (0 : Fin 2) * 1 + 1 * (j 0).val = (j 0).val
    omega
  | ⟨1, _⟩ =>
    show win1_5.index t (1 : Fin 2) * 64 + 1 * (j 1).val = (j 1).val
    omega

/-- Point `t`'s block of window 6, read off a matrix `G`, is `G`'s row block at `5000 t`. -/
theorem read_blk1_6 (G : Vec Ideal S50000x64 .f32) (t : Fin cfg1.N) :
    (((cfg1.win 6).blk t).view.read (Elt Ideal) G : Vec Ideal S5000x64 .f32) = rowsAt (5000 * t.val) (le1 t) G := by
  funext j
  obtain ⟨p, q, rfl⟩ : ∃ (p : Fin 5000) (q : Fin 64), j = ix2 p q := ⟨j 0, j 1, eq_ix2 j⟩
  rw [rowsAt_apply]
  show G (((cfg1.win 6).blk t).view.emb (ix2 p q)) = G (ix2 _ q)
  refine congrArg _ ?_
  obtain ⟨e0, e1⟩ := idx1_6 t
  funext a
  refine Fin.ext ?_
  match a with
  | ⟨0, _⟩ =>
    show win1_6.index t (0 : Fin 2) * 5000 + 1 * p.val = 5000 * t.val + p.val
    omega
  | ⟨1, _⟩ =>
    show win1_6.index t (1 : Fin 2) * 64 + 1 * q.val = q.val
    omega

/-- An index of the array is in point `t`'s block iff each coordinate is in the block's range on its axis. -/
theorem mem_blk1_6 (t : Fin cfg1.N) (i : S50000x64.Idx) :
    i ∈ ((cfg1.win 6).blk t).view.set ↔ ∀ a : Fin 2, win1_6.index t a * S5000x64.size a ≤ (i a).val ∧ (i a).val < win1_6.index t a * S5000x64.size a + S5000x64.size a := by
  show i ∈ ((View.whole main_v43).slice (win1_6.rect t)).set ↔ _
  rw [View.set_slice_whole, Rect.mem_set_unit]
  exact Iff.rfl

/-- The row blocks tile the rows: row `r` of the array lies in the block of point `r / 5000`. -/
theorem rows_cover1_6 (i : S50000x64.Idx) :
    ∃ t : Fin cfg1.N, (cfg1.win 6).flush t = true ∧ i ∈ ((cfg1.win 6).blk t).view.set := by
  have hi0 : (i 0).val < 50000 := (i 0).isLt
  have hi1 : (i 1).val < 64 := (i 1).isLt
  obtain ⟨t, ht⟩ : ∃ t : Fin cfg1.N, t.val = (i 0).val / 5000 :=
    ⟨⟨(i 0).val / 5000, by show _ < grid1.N; rw [N_1]; omega⟩, rfl⟩
  obtain ⟨e0, e1⟩ := idx1_6 t
  refine ⟨t, flush1_6 t, ?_⟩
  rw [mem_blk1_6]
  intro a
  match a with
  | ⟨0, _⟩ =>
    show win1_6.index t (0 : Fin 2) * 5000 ≤ (i 0).val ∧ (i 0).val < win1_6.index t (0 : Fin 2) * 5000 + 5000
    omega
  | ⟨1, _⟩ =>
    show win1_6.index t (1 : Fin 2) * 64 ≤ (i 1).val ∧ (i 1).val < win1_6.index t (1 : Fin 2) * 64 + 64
    omega

/-- If every point leaves in window 6's buffer the row block of one matrix `G`, the node array ends as `G`. -/
theorem arrAt1_6 (c : Dev nD) (G : Vec Ideal S50000x64 .f32)
    (hG : ∀ t : Fin cfg1.N, ((dat1 V c).after 6 t : Vec Ideal S5000x64 .f32) = rowsAt (5000 * t.val) (le1 t) G) :
    (dat1 V c).arrAt 6 cfg1.N = G := by
  -- every point writes back its row block of `G`, and the row blocks cover the array
  refine (dat1 V c).arrAt_eq_of_cover 6 G (fun t _ => ?_) rows_cover1_6
  -- the block is not clipped, so what is written back is all of what the body left
  show (cfg1.win 6).cut (grid1.coords t) ((dat1 V c).after 6 t) = _
  rw [hG t]
  exact (read_blk1_6 G t).symm

end Cert.KernelIdeal.Blocks

end
-- ==== Proof.LibRowsCat.lean ====
/-
  Row blocks of a matrix against a concatenation along the columns and against a sum along the columns.

  Entry `(p, q)` of matrices laid side by side is an entry of row `p` of one of them, so the row block of the
  concatenation is the concatenation of the row blocks; the sum of the entries of row `p` is a function of row `p`,
  so the column of row sums of a block is the row block of the column of row sums.
-/
import proofs.«181869_j44959717655304_1_alg».proof.Proof.LibRows

noncomputable section

open scoped BigOperators

namespace Idealize.ShloMosaic.RowCat

open Idealize.ShloMosaic Idealize.ShloMosaic.ValueIdx Idealize.ShloMosaic.RowBlocks

variable {α : Type}

/-! ## A concatenation along the columns -/

/-- Three matrices side by side: the block of the concatenation is the concatenation of the blocks. -/
theorem concatenate3_rowsAt {M B C1 C2 C3 C : Nat} (o : Nat) (h : o + B ≤ M)
    (X1 : (⟨2, ![M, C1]⟩ : Shape).Idx → α) (X2 : (⟨2, ![M, C2]⟩ : Shape).Idx → α) (X3 : (⟨2, ![M, C3]⟩ : Shape).Idx → α)
    (hB : Shape.Concatenates [(⟨2, ![B, C1]⟩ : Shape), ⟨2, ![B, C2]⟩, ⟨2, ![B, C3]⟩] ⟨2, ![B, C]⟩ 1)
    (hM : Shape.Concatenates [(⟨2, ![M, C1]⟩ : Shape), ⟨2, ![M, C2]⟩, ⟨2, ![M, C3]⟩] ⟨2, ![M, C]⟩ 1) :
    concatenate ⟨2, ![B, C]⟩ 1 [⟨⟨2, ![B, C1]⟩, rowsAt o h X1⟩, ⟨⟨2, ![B, C2]⟩, rowsAt o h X2⟩, ⟨⟨2, ![B, C3]⟩, rowsAt o h X3⟩] hB
      = rowsAt o h (concatenate ⟨2, ![M, C]⟩ 1 [⟨⟨2, ![M, C1]⟩, X1⟩, ⟨⟨2, ![M, C2]⟩, X2⟩, ⟨⟨2, ![M, C3]⟩, X3⟩] hM) := by
  have hC : C1 + (C2 + C3) = C := by
    have e := hB.2.2
    simp only [List.map, List.sum_cons, List.sum_nil] at e
    exact e
  funext j
  obtain ⟨p, q, rfl⟩ : ∃ (p : Fin B) (q : Fin C), j = ix2 p q := ⟨j 0, j 1, eq_ix2 j⟩
  rw [rowsAt_apply]
  have hp : o + p.val < M := by have := p.isLt; omega
  have hqC := q.isLt
  by_cases hq : q.val < C1
  · -- a column of the first matrix
    have hq' : q.val < C1 := hq
    have eL := concatenate_apply_piece 1 [⟨⟨2, ![B, C1]⟩, rowsAt o h X1⟩, ⟨⟨2, ![B, C2]⟩, rowsAt o h X2⟩, ⟨⟨2, ![B, C3]⟩, rowsAt o h X3⟩] hB (ix2 p q)
      0 (by simp) ⟨2, ![B, C1]⟩ (rowsAt o h X1) rfl rfl 0 rfl (ix2 p (⟨q.val, hq'⟩ : Fin C1))
      (fun b => match b with | ⟨0, _⟩ => fun _ => rfl | ⟨1, _⟩ => fun hb => absurd rfl hb)
      (by show 0 + q.val = q.val; omega)
    have eR := concatenate_apply_piece 1 [⟨⟨2, ![M, C1]⟩, X1⟩, ⟨⟨2, ![M, C2]⟩, X2⟩, ⟨⟨2, ![M, C3]⟩, X3⟩] hM (ix2 (⟨o + p.val, hp⟩ : Fin M) q)
      0 (by simp) ⟨2, ![M, C1]⟩ X1 rfl rfl 0 rfl (ix2 (⟨o + p.val, hp⟩ : Fin M) (⟨q.val, hq'⟩ : Fin C1))
      (fun b => match b with | ⟨0, _⟩ => fun _ => rfl | ⟨1, _⟩ => fun hb => absurd rfl hb)
      (by show 0 + q.val = q.val; omega)
    rw [eL, eR, rowsAt_apply]
  · by_cases hq2 : q.val < C1 + C2
    · -- a column of the second matrix: the first matrix's width less
      have hq' : q.val - C1 < C2 := by omega
      have eL := concatenate_apply_piece 1 [⟨⟨2, ![B, C1]⟩, rowsAt o h X1⟩, ⟨⟨2, ![B, C2]⟩, rowsAt o h X2⟩, ⟨⟨2, ![B, C3]⟩, rowsAt o h X3⟩] hB (ix2 p q)
        1 (by simp) ⟨2, ![B, C2]⟩ (rowsAt o h X2) rfl rfl C1 rfl (ix2 p (⟨q.val - C1, hq'⟩ : Fin C2))
        (fun b => match b with | ⟨0, _⟩ => fun _ => rfl | ⟨1, _⟩ => fun hb => absurd rfl hb)
        (by show C1 + (q.val - C1) = q.val; omega)
      have eR := concatenate_apply_piece 1 [⟨⟨2, ![M, C1]⟩, X1⟩, ⟨⟨2, ![M, C2]⟩, X2⟩, ⟨⟨2, ![M, C3]⟩, X3⟩] hM (ix2 (⟨o + p.val, hp⟩ : Fin M) q)
        1 (by simp) ⟨2, ![M, C2]⟩ X2 rfl rfl C1 rfl (ix2 (⟨o + p.val, hp⟩ : Fin M) (⟨q.val - C1, hq'⟩ : Fin C2))
        (fun b => match b with | ⟨0, _⟩ => fun _ => rfl | ⟨1, _⟩ => fun hb => absurd rfl hb)
        (by show C1 + (q.val - C1) = q.val; omega)
      rw [eL, eR, rowsAt_apply]
    · -- a column of the third matrix: the first two widths less
      have hq' : q.val - (C1 + C2) < C3 := by omega
      have eL := concatenate_apply_piece 1 [⟨⟨2, ![B, C1]⟩, rowsAt o h X1⟩, ⟨⟨2, ![B, C2]⟩, rowsAt o h X2⟩, ⟨⟨2, ![B, C3]⟩, rowsAt o h X3⟩] hB (ix2 p q)
        2 (by simp) ⟨2, ![B, C3]⟩ (rowsAt o h X3) rfl rfl (C1 + C2) rfl (ix2 p (⟨q.val - (C1 + C2), hq'⟩ : Fin C3))
        (fun b => match b with | ⟨0, _⟩ => fun _ => rfl | ⟨1, _⟩ => fun hb => absurd rfl hb)
        (by show C1 + C2 + (q.val - (C1 + C2)) = q.val; omega)
      have eR := concatenate_apply_piece 1 [⟨⟨2, ![M, C1]⟩, X1⟩, ⟨⟨2, ![M, C2]⟩, X2⟩, ⟨⟨2, ![M, C3]⟩, X3⟩] hM (ix2 (⟨o + p.val, hp⟩ : Fin M) q)
        2 (by simp) ⟨2, ![M, C3]⟩ X3 rfl rfl (C1 + C2) rfl (ix2 (⟨o + p.val, hp⟩ : Fin M) (⟨q.val - (C1 + C2), hq'⟩ : Fin C3))
        (fun b => match b with | ⟨0, _⟩ => fun _ => rfl | ⟨1, _⟩ => fun hb => absurd rfl hb)
        (by show C1 + C2 + (q.val - (C1 + C2)) = q.val; omega)
      rw [eL, eR, rowsAt_apply]

/-- Two matrices side by side: the block of the concatenation is the concatenation of the blocks. -/
theorem concatenate2_rowsAt {M B C1 C2 C : Nat} (o : Nat) (h : o + B ≤ M)
    (X1 : (⟨2, ![M, C1]⟩ : Shape).Idx → α) (X2 : (⟨2, ![M, C2]⟩ : Shape).Idx → α)
    (hB : Shape.Concatenates [(⟨2, ![B, C1]⟩ : Shape), ⟨2, ![B, C2]⟩] ⟨2, ![B, C]⟩ 1)
    (hM : Shape.Concatenates [(⟨2, ![M, C1]⟩ : Shape), ⟨2, ![M, C2]⟩] ⟨2, ![M, C]⟩ 1) :
    concatenate ⟨2, ![B, C]⟩ 1 [⟨⟨2, ![B, C1]⟩, rowsAt o h X1⟩, ⟨⟨2, ![B, C2]⟩, rowsAt o h X2⟩] hB
      = rowsAt o h (concatenate ⟨2, ![M, C]⟩ 1 [⟨⟨2, ![M, C1]⟩, X1⟩, ⟨⟨2, ![M, C2]⟩, X2⟩] hM) := by
  have hC : C1 + C2 = C := by
    have e := hB.2.2
    simp only [List.map, List.sum_cons, List.sum_nil] at e
    exact e
  funext j
  obtain ⟨p, q, rfl⟩ : ∃ (p : Fin B) (q : Fin C), j = ix2 p q := ⟨j 0, j 1, eq_ix2 j⟩
  rw [rowsAt_apply]
  have hp : o + p.val < M := by have := p.isLt; omega
  by_cases hq : q.val < C1
  · have eL := concatenate_apply_piece 1 [⟨⟨2, ![B, C1]⟩, rowsAt o h X1⟩, ⟨⟨2, ![B, C2]⟩, rowsAt o h X2⟩] hB (ix2 p q)
      0 (by simp) ⟨2, ![B, C1]⟩ (rowsAt o h X1) rfl rfl 0 rfl (ix2 p (⟨q.val, hq⟩ : Fin C1))
      (fun b => match b with | ⟨0, _⟩ => fun _ => rfl | ⟨1, _⟩ => fun hb => absurd rfl hb)
      (by show 0 + q.val = q.val; omega)
    have eR := concatenate_apply_piece 1 [⟨⟨2, ![M, C1]⟩, X1⟩, ⟨⟨2, ![M, C2]⟩, X2⟩] hM (ix2 (⟨o + p.val, hp⟩ : Fin M) q)
      0 (by simp) ⟨2, ![M, C1]⟩ X1 rfl rfl 0 rfl (ix2 (⟨o + p.val, hp⟩ : Fin M) (⟨q.val, hq⟩ : Fin C1))
      (fun b => match b with | ⟨0, _⟩ => fun _ => rfl | ⟨1, _⟩ => fun hb => absurd rfl hb)
      (by show 0 + q.val = q.val; omega)
    rw [eL, eR, rowsAt_apply]
  · have hq2 : q.val - C1 < C2 := by have := q.isLt; omega
    have eL := concatenate_apply_piece 1 [⟨⟨2, ![B, C1]⟩, rowsAt o h X1⟩, ⟨⟨2, ![B, C2]⟩, rowsAt o h X2⟩] hB (ix2 p q)
      1 (by simp) ⟨2, ![B, C2]⟩ (rowsAt o h X2) rfl rfl C1 rfl (ix2 p (⟨q.val - C1, hq2⟩ : Fin C2))
      (fun b => match b with | ⟨0, _⟩ => fun _ => rfl | ⟨1, _⟩ => fun hb => absurd rfl hb)
      (by show C1 + (q.val - C1) = q.val; omega)
    have eR := concatenate_apply_piece 1 [⟨⟨2, ![M, C1]⟩, X1⟩, ⟨⟨2, ![M, C2]⟩, X2⟩] hM (ix2 (⟨o + p.val, hp⟩ : Fin M) q)
      1 (by simp) ⟨2, ![M, C2]⟩ X2 rfl rfl C1 rfl (ix2 (⟨o + p.val, hp⟩ : Fin M) (⟨q.val - C1, hq2⟩ : Fin C2))
      (fun b => match b with | ⟨0, _⟩ => fun _ => rfl | ⟨1, _⟩ => fun hb => absurd rfl hb)
      (by show C1 + (q.val - C1) = q.val; omega)
    rw [eL, eR, rowsAt_apply]

/-! ## A sum along the columns, kept as one column -/

/-- Over row `p` of the row sums, the entry with column `k` inserted is entry `(p, k)` of the matrix. -/
theorem lift_row {B C : Nat} (hr : (⟨2, ![B, C]⟩ : Shape).Reduces [1] ⟨1, ![B]⟩) (p : Fin B) (k : Fin C) :
    hr.lift (ix1 p) k = ix2 p k := by
  funext c
  refine Fin.ext ?_
  show hr.liftVal (ix1 p) k.val c = (ix2 p k c).val
  unfold Shape.Reduces.liftVal
  match c with
  | ⟨0, _⟩ => rfl
  | ⟨1, _⟩ => rfl

/-- The kernel sums each row of the block into a vector and recasts it as one column; the host sums each row of the
    whole matrix from an initial value zero and broadcasts the vector to one column. -/
theorem rowSum_rowsAt {M B C : Nat} {φ : FTy} {u : Shape} (o : Nat) (h : o + B ≤ M) (X : FVec Ideal ⟨2, ![M, C]⟩ φ)
    (acc : BitVec φ.bits) (hr : (⟨2, ![B, C]⟩ : Shape).Reduces [1] ⟨1, ![B]⟩) (hφ : FKind.Formats φ)
    (hacc : acc = FKind.add.neutral φ hφ) (hc : (⟨1, ![B]⟩ : Shape).ShapeCasts ⟨2, ![B, 1]⟩)
    (init : u.Idx → Ideal φ) (hrt : (⟨2, ![M, C]⟩ : Shape).ReducesTo [1] ⟨1, ![M]⟩) (hu : 0 < u.numel)
    (h0 : init (Shape.Idx.first hu) = 0) (hbd : (⟨1, ![M]⟩ : Shape).BroadcastsInDim ⟨2, ![M, 1]⟩ ![0]) :
    shapeCast ⟨2, ![B, 1]⟩ (multiReduction .add [1] ⟨1, ![B]⟩ (rowsAt o h X) acc hr hφ hacc) hc
      = rowsAt o h (broadcastInDim ⟨2, ![M, 1]⟩ ![0] hbd (Host.reduceAdd X init hrt hu)) := by
  have hM : (⟨2, ![M, C]⟩ : Shape).Reduces [1] ⟨1, ![M]⟩ := ⟨hrt.1, Nat.one_pos, hrt.2⟩
  funext j
  obtain ⟨p, q, rfl⟩ : ∃ (p : Fin B) (q : Fin 1), j = ix2 p q := ⟨j 0, j 1, eq_ix2 j⟩
  have hq : q = 0 := Subsingleton.elim _ _
  subst hq
  rw [rowsAt_apply]
  have hp : o + p.val < M := by have := p.isLt; omega
  -- entry (p, 0) of the one-column matrix has row-major position p: the recast reads entry p of the vector
  have e1 := shapeCast_apply (multiReduction .add [1] ⟨1, ![B]⟩ (rowsAt o h X) acc hr hφ hacc) hc (ix2 p (0 : Fin 1)) (ix1 p) (by
    rw [Shape.rowMajor_val_two, Shape.rowMajor_val_one]; show p.val = p.val * 1 + 0; omega)
  -- the broadcast reads entry o + p of the vector of all the row sums
  have e2 := broadcastInDim_apply ![0] hbd (Host.reduceAdd X init hrt hu) (ix2 (⟨o + p.val, hp⟩ : Fin M) (0 : Fin 1))
    (ix1 (⟨o + p.val, hp⟩ : Fin M)) (by
    intro a
    match a with
    | ⟨0, _⟩ =>
      show o + p.val = if M = 1 then 0 else o + p.val
      split
      · omega
      · rfl)
  rw [e1, e2, Ideal.multiReduction_add_single, hostReduceAdd_apply, Ideal.hostReduceAdd_single hrt hM, h0, zero_add]
  -- both are sums over the columns; term by term, entry (p, k) of the block is entry (o + p, k) of the matrix
  show (∑ k : Fin C, rowsAt o h X (hr.lift (ix1 p) k)) = ∑ k : Fin C, X (hM.lift (ix1 (⟨o + p.val, hp⟩ : Fin M)) k)
  refine Finset.sum_congr rfl fun k _ => ?_
  rw [lift_row, lift_row, rowsAt_apply]

end Idealize.ShloMosaic.RowCat

end
-- ==== Proof.KernelIdealRegion0.lean ====
/-
  What one grid point of the edge region writes back: the row block of the whole-array edge functions.

  The kernel's body at a point computes, from the point's 3200 rows of the three edge arrays and the whole weight
  arrays, the same chain the reference applies to all 800000 rows: squared distance by a row sum, the three pieces
  side by side, a linear layer, the sigmoid-weighted unit, a second layer and unit (the edge messages), then a third
  layer and unit, a one-column layer, and the coordinate difference scaled by that column.  Every step is row-local,
  so each commutes with taking the rows of the point; changes of float format are the identity at the ideal values.
-/
import proofs.«181869_j44959717655304_1_alg».proof.Proof.Gen.KernelIdeal.Frame
import proofs.«181869_j44959717655304_1_alg».proof.Proof.Spec
import proofs.«181869_j44959717655304_1_alg».proof.Proof.LibRows
import proofs.«181869_j44959717655304_1_alg».proof.Proof.LibRowsCat

set_option maxRecDepth 16384

noncomputable section

namespace Cert.KernelIdeal.Region0

open Idealize.ShloMosaic Idealize.ShloMosaic.TcCoe Idealize.ShloMosaic.ValueIdx
open Idealize.ShloMosaic.RowBlocks Idealize.ShloMosaic.RowCat
open Cert.KernelIdeal Cert.KernelIdeal.Gen

variable [Cert.ReferenceIdeal.Facts]

/-- The sigmoid-weighted unit of the specification is `x · σ(x)` with the one-operation sigmoid. -/
theorem siluE_eq (X : FVec Ideal Cert.ReferenceIdeal.S800000x64 .f32) : Cert.Spec.siluE (F := Ideal) X = mulf X (logistic X) := by
  unfold Cert.Spec.siluE
  exact (silu_eq_host X _).symm

/-- Three pieces side by side depend only on the pieces. -/
theorem cat3_congr {x1 x1' x2 x2' : FVec Ideal S3200x64 .f32} {x3 x3' : FVec Ideal S3200x1 .f32}
    (e1 : x1 = x1') (e2 : x2 = x2') (e3 : x3 = x3') (hc : Shape.Concatenates [S3200x64, S3200x64, S3200x1] S3200x129 1) :
    concatenate S3200x129 1 [⟨S3200x64, x1⟩, ⟨S3200x64, x2⟩, ⟨S3200x1, x3⟩] hc
      = concatenate S3200x129 1 [⟨S3200x64, x1'⟩, ⟨S3200x64, x2'⟩, ⟨S3200x1, x3'⟩] hc := by
  subst e1 e2 e3; rfl

variable (o : Nat) (h : o + 3200 ≤ 800000)

/-- The input rows of the edge network: squared distance by a row sum, three pieces side by side. -/
theorem edgeIn_rows (hs hd : FVec Ideal Cert.ReferenceIdeal.S800000x64 .f32) (dx : FVec Ideal Cert.ReferenceIdeal.S800000x3 .f32) :
    concatenate S3200x129 1 [⟨S3200x64, shapeCast S3200x64 (rowsAt o h hs) shapeCasts_S3200x64_S3200x64⟩,
        ⟨S3200x64, shapeCast S3200x64 (rowsAt o h hd) shapeCasts_S3200x64_S3200x64⟩,
        ⟨S3200x1, shapeCast S3200x1 (multiReduction .add [1] S3200
            (mulf (shapeCast S3200x3 (rowsAt o h dx) shapeCasts_S3200x3_S3200x3) (shapeCast S3200x3 (rowsAt o h dx) shapeCasts_S3200x3_S3200x3))
            0x00000000#32 reduces_S3200x3_S3200 (.inl rfl) rfl) shapeCasts_S3200_S3200x1⟩]
        concatenates_S3200x64_S3200x64_S3200x1_S3200x129_d1
      = rowsAt o h (Cert.Spec.edgeIn (F := Ideal) hs hd dx) := by
  have e3 : shapeCast S3200x1 (multiReduction .add [1] S3200
            (mulf (shapeCast S3200x3 (rowsAt o h dx) shapeCasts_S3200x3_S3200x3) (shapeCast S3200x3 (rowsAt o h dx) shapeCasts_S3200x3_S3200x3))
            0x00000000#32 reduces_S3200x3_S3200 (.inl rfl) rfl) shapeCasts_S3200_S3200x1
      = rowsAt o h (broadcastInDim Cert.ReferenceIdeal.S800000x1 ![0] Cert.ReferenceIdeal.Facts₀.bcast_S800000_S800000x1_0
          (Host.reduceAdd (mulf dx dx) (constant (F := Ideal) Cert.ReferenceIdeal.S_ .f32 0x00000000#32)
            Cert.ReferenceIdeal.Facts₀.reducesTo_S800000x3_S800000_d1 Cert.ReferenceIdeal.Facts₀.h_S_)) := by
    rw [shapeCast_self]
    exact rowSum_rowsAt o h (mulf dx dx) 0x00000000#32 reduces_S3200x3_S3200 (.inl rfl) rfl shapeCasts_S3200_S3200x1
      (constant (F := Ideal) Cert.ReferenceIdeal.S_ .f32 0x00000000#32) Cert.ReferenceIdeal.Facts₀.reducesTo_S800000x3_S800000_d1
      Cert.ReferenceIdeal.Facts₀.h_S_ (by show Ideal.ofBits .f32 0x00000000#32 = 0; exact Ideal.ofBits_zero_f32)
      Cert.ReferenceIdeal.Facts₀.bcast_S800000_S800000x1_0
  refine (cat3_congr (shapeCast_self _ _) (shapeCast_self _ _) e3 _).trans ?_
  unfold Cert.Spec.edgeIn
  exact concatenate3_rowsAt o h hs hd _ _ _

/-- The unit on the rows of a point. -/
theorem silu_rows (X : FVec Ideal Cert.ReferenceIdeal.S800000x64 .f32) :
    mulf (rowsAt o h X) (logistic (rowsAt o h X)) = rowsAt o h (Cert.Spec.siluE (F := Ideal) X) := by
  rw [siluE_eq]; rfl

/-- The first layer and unit, then the second layer's product: what the first stretch of the body hands on. -/
theorem pay9_rows (hs hd : FVec Ideal Cert.ReferenceIdeal.S800000x64 .f32) (dx : FVec Ideal Cert.ReferenceIdeal.S800000x3 .f32)
    (W1 : FVec Ideal S129x64 .f32) (W2 : FVec Ideal S64x64 .f32) (B1 : FVec Ideal S1x64 .f32) :
    k0_pay9 (F := Ideal) (rowsAt o h hs) (rowsAt o h hd) (rowsAt o h dx) W1 W2 B1
      = rowsAt o h (Host.dotGeneral (φ₁ := .f32) (φ₂ := .f32) Cert.ReferenceIdeal.dot_S800000x64_S64x64_S800000x64_1_0_0_1_n_n none
          (Cert.Spec.siluE (F := Ideal) (addf (Host.dotGeneral (φ₁ := .f32) (φ₂ := .f32) Cert.ReferenceIdeal.dot_S800000x129_S129x64_S800000x64_1_0_0_1_n_n none (Cert.Spec.edgeIn (F := Ideal) hs hd dx) W1)
            (broadcastInDim Cert.ReferenceIdeal.S800000x64 ![0, 1] Cert.ReferenceIdeal.Facts₀.bcast_S1x64_S800000x64_0_1 B1))) W2) := by
  unfold k0_pay9 k0_pay3
  simp only [shapeCast_self]
  rw [edgeIn_rows o h hs hd dx,
    matmul_narrow_rowsAt o h dot_S3200x129_S129x64_S3200x64_1_0_0_1_n_n Cert.ReferenceIdeal.dot_S800000x129_S129x64_S800000x64_1_0_0_1_n_n rfl rfl (Cert.Spec.edgeIn (F := Ideal) hs hd dx) W1 _,
    broadcastTo_row_rowsAt o h B1 _ Cert.ReferenceIdeal.Facts₀.bcast_S1x64_S800000x64_0_1,
    addf_rowsAt, silu_rows o h,
    matmul_narrow_rowsAt o h dot_S3200x64_S64x64_S3200x64_1_0_0_1_n_n Cert.ReferenceIdeal.dot_S800000x64_S64x64_S800000x64_1_0_0_1_n_n rfl rfl _ W2 _]

/-- The edge messages on the rows of a point. -/
theorem pay1_rows (hs hd : FVec Ideal Cert.ReferenceIdeal.S800000x64 .f32) (dx : FVec Ideal Cert.ReferenceIdeal.S800000x3 .f32)
    (W1 : FVec Ideal S129x64 .f32) (B1 : FVec Ideal S1x64 .f32) (W2 : FVec Ideal S64x64 .f32) (B2 : FVec Ideal S1x64 .f32) :
    k0_pay1 (F := Ideal) (k0_pay6 B2) (k0_pay9 (rowsAt o h hs) (rowsAt o h hd) (rowsAt o h dx) W1 W2 B1)
      = rowsAt o h (Cert.Spec.edgeH (F := Ideal) hs hd dx W1 B1 W2 B2) := by
  rw [pay9_rows o h]
  unfold k0_pay1 k0_pay6
  simp only [shapeCast_self]
  rw [broadcastTo_row_rowsAt o h B2 _ Cert.ReferenceIdeal.Facts₀.bcast_S1x64_S800000x64_0_1, addf_rowsAt, silu_rows o h]
  rfl

/-- The coordinate messages on the rows of a point, from the point's rows of the edge messages: the third layer and
    unit, the one-column layer, and the coordinate difference scaled by that column. -/
theorem pay2_rows (he : FVec Ideal Cert.ReferenceIdeal.S800000x64 .f32) (dx : FVec Ideal Cert.ReferenceIdeal.S800000x3 .f32)
    (Wc1 : FVec Ideal S64x64 .f32) (Bc1 : FVec Ideal S1x64 .f32) (Wc2 : FVec Ideal S64x1 .f32) (Bc2 : FVec Ideal S1x1 .f32)
    (B2 : FVec Ideal S1x64 .f32) (v33 : FVec Ideal S3200x64 .f32)
    (hv : k0_pay1 (F := Ideal) (k0_pay6 B2) v33 = rowsAt o h he) :
    k0_pay2 (F := Ideal) (k0_pay3 (rowsAt o h dx)) (k0_pay4 Wc1) (k0_pay5 Wc2) (k0_pay6 B2) (k0_pay7 Bc1) (k0_pay8 Bc2) v33
      = rowsAt o h (Cert.Spec.edgeX (F := Ideal) he dx Wc1 Bc1 Wc2 Bc2) := by
  unfold k0_pay2
  rw [hv]
  unfold k0_pay3 k0_pay4 k0_pay5 k0_pay7 k0_pay8
  simp only [shapeCast_self]
  rw [matmul_narrow_rowsAt o h dot_S3200x64_S64x64_S3200x64_1_0_0_1_n_n Cert.ReferenceIdeal.dot_S800000x64_S64x64_S800000x64_1_0_0_1_n_n rfl rfl he Wc1 _,
    broadcastTo_row_rowsAt o h Bc1 _ Cert.ReferenceIdeal.Facts₀.bcast_S1x64_S800000x64_0_1,
    addf_rowsAt, silu_rows o h,
    matmul_narrow_rowsAt o h dot_S3200x64_S64x1_S3200x1_1_0_0_1_n_n Cert.ReferenceIdeal.dot_S800000x64_S64x1_S800000x1_1_0_0_1_n_n rfl rfl _ Wc2 _,
    broadcastTo_row_rowsAt o h Bc2 _ Cert.ReferenceIdeal.Facts₀.bcast_S1x1_S800000x1_0_1,
    addf_rowsAt,
    broadcastTo_col_rowsAt o h _ _ Cert.ReferenceIdeal.Facts₀.bcast_S800000x1_S800000x3_0_1,
    mulf_rowsAt]
  rfl

/-- The offsets of a store or load through a whole buffer are zero on both axes. -/
theorem hz : (![0, 0] : Fin 2 → Nat) = fun _ => 0 := funext fun a => by fin_cases a <;> rfl

/-- The first result block of a point: the edge messages on its rows. -/
theorem out0_11_rows (hs hd : FVec Ideal Cert.ReferenceIdeal.S800000x64 .f32) (dx : FVec Ideal Cert.ReferenceIdeal.S800000x3 .f32)
    (W1 : FVec Ideal S129x64 .f32) (B1 : FVec Ideal S1x64 .f32) (W2 : FVec Ideal S64x64 .f32) (B2 : FVec Ideal S1x64 .f32)
    (x7 : FVec Ideal S64x64 .f32) (x8 : FVec Ideal S1x64 .f32) (x9 : FVec Ideal S64x1 .f32) (x10 : FVec Ideal S1x1 .f32) :
    out0_11 (F := Ideal) (rowsAt o h hs) (rowsAt o h hd) (rowsAt o h dx) W1 B1 W2 B2 x7 x8 x9 x10
      = rowsAt o h (Cert.Spec.edgeH (F := Ideal) hs hd dx W1 B1 W2 B2) := by
  unfold out0_11
  rw [View.canon_unit_zero hz]
  simp only [View.ld_unit_zero (S := S3200x64) hz, View.ld_unit_zero (S := S3200x3) hz, View.ld_unit_zero (S := S129x64) hz,
    View.ld_unit_zero (S := S64x64) hz, View.ld_unit_zero (S := S1x64) hz]
  exact pay1_rows o h hs hd dx W1 B1 W2 B2

/-- The second result block of a point: the coordinate messages on its rows. -/
theorem out0_12_rows (hs hd : FVec Ideal Cert.ReferenceIdeal.S800000x64 .f32) (dx : FVec Ideal Cert.ReferenceIdeal.S800000x3 .f32)
    (W1 : FVec Ideal S129x64 .f32) (B1 : FVec Ideal S1x64 .f32) (W2 : FVec Ideal S64x64 .f32) (B2 : FVec Ideal S1x64 .f32)
    (Wc1 : FVec Ideal S64x64 .f32) (Bc1 : FVec Ideal S1x64 .f32) (Wc2 : FVec Ideal S64x1 .f32) (Bc2 : FVec Ideal S1x1 .f32) :
    out0_12 (F := Ideal) (rowsAt o h hs) (rowsAt o h hd) (rowsAt o h dx) W1 B1 W2 B2 Wc1 Bc1 Wc2 Bc2
      = rowsAt o h (Cert.Spec.edgeX (F := Ideal) (Cert.Spec.edgeH (F := Ideal) hs hd dx W1 B1 W2 B2) dx Wc1 Bc1 Wc2 Bc2) := by
  unfold out0_12
  rw [View.canon_unit_zero hz]
  simp only [View.ld_unit_zero (S := S3200x64) hz, View.ld_unit_zero (S := S3200x3) hz, View.ld_unit_zero (S := S129x64) hz,
    View.ld_unit_zero (S := S64x64) hz, View.ld_unit_zero (S := S1x64) hz, View.ld_unit_zero (S := S64x1) hz,
    View.ld_unit_zero (S := S1x1) hz]
  exact pay2_rows o h _ dx Wc1 Bc1 Wc2 Bc2 B2 _ (pay1_rows o h hs hd dx W1 B1 W2 B2)

end Cert.KernelIdeal.Region0

end
-- ==== Proof.KernelIdealRegion1.lean ====
/-
  What one grid point of the node region writes back: the row block of the whole-array node network.

  The body at a point lays the point's 5000 feature rows beside the same rows of the summed edge messages, applies a
  linear layer, the sigmoid-weighted unit and a second linear layer.  Every step is row-local, so each commutes with
  taking the rows of the point; changes of float format are the identity at the ideal values.
-/
import proofs.«181869_j44959717655304_1_alg».proof.Proof.Gen.KernelIdeal.Frame
import proofs.«181869_j44959717655304_1_alg».proof.Proof.Spec
import proofs.«181869_j44959717655304_1_alg».proof.Proof.LibRows
import proofs.«181869_j44959717655304_1_alg».proof.Proof.LibRowsCat

set_option maxRecDepth 16384

noncomputable section

namespace Cert.KernelIdeal.Region1

open Idealize.ShloMosaic Idealize.ShloMosaic.TcCoe Idealize.ShloMosaic.ValueIdx
open Idealize.ShloMosaic.RowBlocks Idealize.ShloMosaic.RowCat
open Cert.KernelIdeal Cert.KernelIdeal.Gen

variable [Cert.ReferenceIdeal.Facts]
/-- The sigmoid-weighted unit of the specification is `x · σ(x)` with the one-operation sigmoid. -/
theorem siluN_eq (X : FVec Ideal Cert.ReferenceIdeal.S50000x64 .f32) : Cert.Spec.siluN (F := Ideal) X = mulf X (logistic X) := by
  unfold Cert.Spec.siluN
  exact (silu_eq_host X _).symm

/-- Two pieces side by side depend only on the pieces. -/
theorem cat2_congr {x1 x1' x2 x2' : FVec Ideal S5000x64 .f32} (e1 : x1 = x1') (e2 : x2 = x2')
    (hc : Shape.Concatenates [S5000x64, S5000x64] S5000x128 1) :
    concatenate S5000x128 1 [⟨S5000x64, x1⟩, ⟨S5000x64, x2⟩] hc
      = concatenate S5000x128 1 [⟨S5000x64, x1'⟩, ⟨S5000x64, x2'⟩] hc := by
  subst e1 e2; rfl

variable (o : Nat) (h : o + 5000 ≤ 50000)

/-- The input rows of the node network: the features beside the summed messages. -/
theorem nodeIn_rows (a0 hagg : FVec Ideal Cert.ReferenceIdeal.S50000x64 .f32) :
    concatenate S5000x128 1 [⟨S5000x64, rowsAt o h a0⟩,
        ⟨S5000x64, shapeCast S5000x64 (rowsAt o h hagg) shapeCasts_S5000x64_S5000x64⟩]
        concatenates_S5000x64_S5000x64_S5000x128_d1
      = rowsAt o h (concatenate Cert.ReferenceIdeal.S50000x128 1
          [⟨Cert.ReferenceIdeal.S50000x64, a0⟩, ⟨Cert.ReferenceIdeal.S50000x64, hagg⟩]
          Cert.ReferenceIdeal.Facts₀.concatenates_S50000x64_S50000x64_S50000x128_d1) := by
  refine (cat2_congr rfl (shapeCast_self _ _) _).trans ?_
  exact concatenate2_rowsAt o h a0 hagg _ _

/-- The unit on the rows of a point. -/
theorem silu_rows (X : FVec Ideal Cert.ReferenceIdeal.S50000x64 .f32) :
    mulf (rowsAt o h X) (logistic (rowsAt o h X)) = rowsAt o h (Cert.Spec.siluN (F := Ideal) X) := by
  rw [siluN_eq]; rfl

/-- The node network on the rows of a point. -/
theorem pay1_rows (a0 hagg : FVec Ideal Cert.ReferenceIdeal.S50000x64 .f32) (Wn1 : FVec Ideal S128x64 .f32) (Wn2 : FVec Ideal S64x64 .f32)
    (Bn1 Bn2 : FVec Ideal S1x64 .f32) :
    k1_pay1 (F := Ideal) (rowsAt o h a0) (rowsAt o h hagg) Wn1 Wn2 Bn1 Bn2
      = rowsAt o h (Cert.Spec.nodeH (F := Ideal) a0 hagg Wn1 Bn1 Wn2 Bn2) := by
  unfold k1_pay1
  simp only [shapeCast_self]
  unfold Cert.Spec.nodeH
  rw [nodeIn_rows o h a0 hagg,
    matmul_narrow_rowsAt o h dot_S5000x128_S128x64_S5000x64_1_0_0_1_n_n Cert.ReferenceIdeal.dot_S50000x128_S128x64_S50000x64_1_0_0_1_n_n rfl rfl _ Wn1 _,
    broadcastTo_row_rowsAt o h Bn1 _ Cert.ReferenceIdeal.Facts₀.bcast_S1x64_S50000x64_0_1,
    addf_rowsAt, silu_rows o h,
    matmul_narrow_rowsAt o h dot_S5000x64_S64x64_S5000x64_1_0_0_1_n_n Cert.ReferenceIdeal.dot_S50000x64_S64x64_S50000x64_1_0_0_1_n_n rfl rfl _ Wn2 _,
    broadcastTo_row_rowsAt o h Bn2 _ Cert.ReferenceIdeal.Facts₀.bcast_S1x64_S50000x64_0_1, addf_rowsAt]

/-- What the point leaves in the result window's buffer. -/
theorem out1_6_rows (a0 hagg : FVec Ideal Cert.ReferenceIdeal.S50000x64 .f32) (Wn1 : FVec Ideal S128x64 .f32) (Bn1 : FVec Ideal S1x64 .f32)
    (Wn2 : FVec Ideal S64x64 .f32) (Bn2 : FVec Ideal S1x64 .f32) :
    out1_6 (F := Ideal) (rowsAt o h a0) (rowsAt o h hagg) Wn1 Bn1 Wn2 Bn2
      = rowsAt o h (Cert.Spec.nodeH (F := Ideal) a0 hagg Wn1 Bn1 Wn2 Bn2) := by
  -- the body reads its whole windows and stores once over the whole result window
  have hz : (![0, 0] : Fin 2 → Nat) = fun _ => 0 := funext fun a => by fin_cases a <;> rfl
  unfold out1_6
  rw [View.canon_unit_zero hz]
  simp only [View.ld_unit_zero (S := S5000x64) hz, View.ld_unit_zero (S := S128x64) hz,
    View.ld_unit_zero (S := S64x64) hz, View.ld_unit_zero (S := S1x64) hz]
  exact pay1_rows o h a0 hagg Wn1 Wn2 Bn1 Bn2

end Cert.KernelIdeal.Region1

end
-- ==== Proof.KernelIdealValue.lean ====
/-
  The kernel program's two results as the whole-array functions of its arguments.

  Each result array of a grid region is the one matrix whose row block at every grid point is what the point writes
  back, and a point writes back the row block of the region's whole-array function of the arrays the region finds; the
  arrays a region finds are the host operations' functions of the arguments and of the earlier region's results.
  Composed: the returned features are the node network of the argument features and the scatter-summed edge messages,
  the returned coordinates the argument coordinates plus the scatter-summed coordinate messages.
-/
import proofs.«181869_j44959717655304_1_alg».proof.Proof.KernelIdealHost
import proofs.«181869_j44959717655304_1_alg».proof.Proof.KernelIdealBlocks
import proofs.«181869_j44959717655304_1_alg».proof.Proof.KernelIdealRegion0
import proofs.«181869_j44959717655304_1_alg».proof.Proof.KernelIdealRegion1

set_option maxRecDepth 16384

noncomputable section

namespace Cert.KernelIdeal.ValueLeg

open Idealize.ShloMosaic Idealize.ShloMosaic.TcCoe Idealize.SL.Sem Idealize.ShloMosaic.RowBlocks
open Cert.KernelIdeal Cert.KernelIdeal.Gen

variable [Cert.ReferenceIdeal.Facts]

/-! ## The regions' result arrays, at any entry contents -/

section Regions
variable (V : (c : Dev nD) → (b : Ref sig .tc) → Buf (Elt Ideal) ((c : Thread nD τ).loc b))

/-- The edge region's first result: the edge messages of the arrays it finds. -/
theorem arr0_11 (c : Dev nD) : (dat0 V c).arrAt 11 cfg0.N
    = Cert.Spec.edgeH (F := Ideal) (V c main_v6) (V c main_v13) (V c main_v28) (V c main_arg4) (V c main_v29) (V c main_arg6) (V c main_v30) := by
  refine Blocks.arrAt0_11 V c _ (fun t => ?_)
  rw [after0_11, Blocks.iblk0_0 V c t, Blocks.iblk0_1 V c t, Blocks.iblk0_2 V c t, Blocks.iblk0_3 V c t, Blocks.iblk0_4 V c t,
    Blocks.iblk0_5 V c t, Blocks.iblk0_6 V c t]
  exact Region0.out0_11_rows _ _ _ _ _ _ _ _ _ _ _ _ _

/-- The edge region's second result: the coordinate messages. -/
theorem arr0_12 (c : Dev nD) : (dat0 V c).arrAt 12 cfg0.N
    = Cert.Spec.edgeX (F := Ideal) (Cert.Spec.edgeH (F := Ideal) (V c main_v6) (V c main_v13) (V c main_v28) (V c main_arg4) (V c main_v29) (V c main_arg6) (V c main_v30))
        (V c main_v28) (V c main_arg8) (V c main_v31) (V c main_arg10) (V c main_v32) := by
  refine Blocks.arrAt0_12 V c _ (fun t => ?_)
  rw [after0_12, Blocks.iblk0_0 V c t, Blocks.iblk0_1 V c t, Blocks.iblk0_2 V c t, Blocks.iblk0_3 V c t, Blocks.iblk0_4 V c t,
    Blocks.iblk0_5 V c t, Blocks.iblk0_6 V c t, Blocks.iblk0_7 V c t, Blocks.iblk0_8 V c t, Blocks.iblk0_9 V c t, Blocks.iblk0_10 V c t]
  exact Region0.out0_12_rows _ _ _ _ _ _ _ _ _ _ _ _ _

/-- The node region's result: the node network of the arrays it finds. -/
theorem arr1_6 (c : Dev nD) : (dat1 V c).arrAt 6 cfg1.N
    = Cert.Spec.nodeH (F := Ideal) (V c main_arg0) (V c main_v39) (V c main_arg12) (V c main_v41) (V c main_arg14) (V c main_v42) := by
  refine Blocks.arrAt1_6 V c _ (fun t => ?_)
  rw [after1_6, Blocks.iblk1_0 V c t, Blocks.iblk1_1 V c t, Blocks.iblk1_2 V c t, Blocks.iblk1_3 V c t, Blocks.iblk1_4 V c t, Blocks.iblk1_5 V c t]
  exact Region1.out1_6_rows _ _ _ _ _ _ _ _

end Regions

/-! ## From the launch memory -/

variable (m : (ℓ : Loc nD τ sig) → Buf (Elt Ideal) ℓ) (ρ : Dev nD → PrngReg)

/-- A bias vector recast as one row is the specification's one-row bias. -/
theorem row64_eq (x : FVec Ideal S64 .f32) : shapeCast S1x64 x shapeCasts_S64_S1x64 = Cert.Spec.row64 (F := Ideal) x := by
  unfold Cert.Spec.row64
  exact shapeCast_row_eq_broadcastInDim x _ _

/-- The one-entry bias recast as a one-by-one matrix is the specification's. -/
theorem row1_eq (x : FVec Ideal S1 .f32) : shapeCast S1x1 x shapeCasts_S1_S1x1 = Cert.Spec.row1 (F := Ideal) x := by
  unfold Cert.Spec.row1
  exact shapeCast_row_eq_broadcastInDim x _ _

/-- The edge messages of the launch memory's arguments. -/
abbrev he (c : Dev nD) : FVec Ideal Cert.ReferenceIdeal.S800000x64 .f32 :=
  (Cert.Spec.edgeH (F := Ideal) (Cert.Spec.hGather (m ((c : Thread nD τ).loc main_arg0)) (m ((c : Thread nD τ).loc main_arg2))) (Cert.Spec.hGather (m ((c : Thread nD τ).loc main_arg0)) (m ((c : Thread nD τ).loc main_arg3)))
      (Cert.Spec.dX (m ((c : Thread nD τ).loc main_arg1)) (m ((c : Thread nD τ).loc main_arg2)) (m ((c : Thread nD τ).loc main_arg3))) (m ((c : Thread nD τ).loc main_arg4)) (Cert.Spec.row64 (m ((c : Thread nD τ).loc main_arg5)))
      (m ((c : Thread nD τ).loc main_arg6)) (Cert.Spec.row64 (m ((c : Thread nD τ).loc main_arg7))))

/-- The edge region's first result array, from the launch memory. -/
theorem edge_h (c : Dev nD) : (dat0 (V1 m ρ) c).arrAt 11 cfg0.N = he m c := by
  rw [arr0_11 (V1 m ρ) c, HostVals.V1_v6 m ρ c, HostVals.V1_v13 m ρ c, HostVals.V1_v28 m ρ c, HostVals.V1_arg4 m ρ c, HostVals.V1_v29 m ρ c,
    HostVals.V1_arg6 m ρ c, HostVals.V1_v30 m ρ c, row64_eq, row64_eq]

/-- The returned features. -/
theorem v43_eq (c : Dev nD) : W4 m ρ c (Proc.devRef .tc main_v43)
    = Cert.Spec.nodeH (F := Ideal) (m ((c : Thread nD τ).loc main_arg0)) (Cert.Spec.scat64 (m ((c : Thread nD τ).loc main_arg3)) (he m c))
        (m ((c : Thread nD τ).loc main_arg12)) (Cert.Spec.row64 (m ((c : Thread nD τ).loc main_arg13))) (m ((c : Thread nD τ).loc main_arg14)) (Cert.Spec.row64 (m ((c : Thread nD τ).loc main_arg15))) := by
  rw [HostVals.W4_v43 m ρ c, arr1_6 (V3 m ρ) c, HostVals.V3_arg0 m ρ c, HostVals.V3_v39 m ρ c, HostVals.V3_arg12 m ρ c, HostVals.V3_v41 m ρ c,
    HostVals.V3_arg14 m ρ c, HostVals.V3_v42 m ρ c, edge_h m ρ c, row64_eq, row64_eq]

/-- The returned coordinates. -/
theorem v40_eq (c : Dev nD) : W4 m ρ c (Proc.devRef .tc main_v40)
    = addf (m ((c : Thread nD τ).loc main_arg1)) (Cert.Spec.scat3 (m ((c : Thread nD τ).loc main_arg3))
        (Cert.Spec.edgeX (F := Ideal) (he m c) (Cert.Spec.dX (m ((c : Thread nD τ).loc main_arg1)) (m ((c : Thread nD τ).loc main_arg2)) (m ((c : Thread nD τ).loc main_arg3)))
          (m ((c : Thread nD τ).loc main_arg8)) (Cert.Spec.row64 (m ((c : Thread nD τ).loc main_arg9))) (m ((c : Thread nD τ).loc main_arg10)) (Cert.Spec.row1 (m ((c : Thread nD τ).loc main_arg11))))) := by
  rw [HostVals.W4_v40 m ρ c, arr0_12 (V1 m ρ) c, ← arr0_11 (V1 m ρ) c, edge_h m ρ c, HostVals.V1_v28 m ρ c, HostVals.V1_arg8 m ρ c, HostVals.V1_v31 m ρ c,
    HostVals.V1_arg10 m ρ c, HostVals.V1_v32 m ρ c, row64_eq, row1_eq]

end Cert.KernelIdeal.ValueLeg

end
-- ==== Proof.RefValue.lean ====
/-
  The reference program's two results as the whole-array functions of the specification: the terms its run ends at
  are, operation for operation, the layer written with the named pieces (gathers, edge network, scatter-sums, node
  network).
-/
import proofs.«181869_j44959717655304_1_alg».proof.Proof.ReferenceIdealRun
import proofs.«181869_j44959717655304_1_alg».proof.Proof.Spec

set_option maxRecDepth 16384

noncomputable section

namespace Cert.ReferenceIdeal.RefValue

open Idealize.ShloMosaic Idealize.ShloMosaic.TcCoe Idealize.SL.Sem
open Cert.ReferenceIdeal Cert.ReferenceIdeal.Value Cert.Spec

variable {F : FTy → Type} [FloatOps F] [Cert.ReferenceIdeal.Facts]
variable (m : (ℓ : Loc nD τ sig) → Buf (Elt F) ℓ)

/-- The edge messages of the launch memory's arguments. -/
abbrev he (c : Dev nD) : Arr (F := F) S800000x64 .f32 :=
  edgeH (hGather (m ((c.tc : Thread nD τ).loc main_arg0)) (m ((c.tc : Thread nD τ).loc main_arg2)))
    (hGather (m ((c.tc : Thread nD τ).loc main_arg0)) (m ((c.tc : Thread nD τ).loc main_arg3)))
    (dX (m ((c.tc : Thread nD τ).loc main_arg1)) (m ((c.tc : Thread nD τ).loc main_arg2)) (m ((c.tc : Thread nD τ).loc main_arg3)))
    (m ((c.tc : Thread nD τ).loc main_arg4)) (row64 (m ((c.tc : Thread nD τ).loc main_arg5)))
    (m ((c.tc : Thread nD τ).loc main_arg6)) (row64 (m ((c.tc : Thread nD τ).loc main_arg7)))

/-- The first result: the node network of the features and the scatter-summed edge messages. -/
theorem res_out0_eq (c : Dev nD) : res_main_v70 m c
    = nodeH (m ((c.tc : Thread nD τ).loc main_arg0)) (scat64 (m ((c.tc : Thread nD τ).loc main_arg3)) (he m c))
        (m ((c.tc : Thread nD τ).loc main_arg12)) (row64 (m ((c.tc : Thread nD τ).loc main_arg13)))
        (m ((c.tc : Thread nD τ).loc main_arg14)) (row64 (m ((c.tc : Thread nD τ).loc main_arg15))) := by
  unfold res_main_v70 he nodeH scat64 edgeH siluE siluN linE edgeIn hGather dX xGather normIdx row64
  rfl

/-- The second result: the coordinates plus the scatter-summed coordinate messages. -/
theorem res_out1_eq (c : Dev nD) : res_main_v60 m c
    = addf (m ((c.tc : Thread nD τ).loc main_arg1)) (scat3 (m ((c.tc : Thread nD τ).loc main_arg3))
        (edgeX (he m c) (dX (m ((c.tc : Thread nD τ).loc main_arg1)) (m ((c.tc : Thread nD τ).loc main_arg2)) (m ((c.tc : Thread nD τ).loc main_arg3)))
          (m ((c.tc : Thread nD τ).loc main_arg8)) (row64 (m ((c.tc : Thread nD τ).loc main_arg9)))
          (m ((c.tc : Thread nD τ).loc main_arg10)) (row1 (m ((c.tc : Thread nD τ).loc main_arg11))))) := by
  unfold res_main_v60 he scat3 edgeX edgeH siluE linE edgeIn hGather dX xGather normIdx row64 row1
  rfl

end Cert.ReferenceIdeal.RefValue

end
-- ==== Proof.lean ====
/-
  One layer of an equivariant graph network, computed two ways.

  For node features [50000, 64], coordinates [50000, 3] and 800000 edges given by their endpoints, the reference
  gathers the endpoint rows, runs the edge network (squared distance, two linear layers with the sigmoid-weighted
  unit), the coordinate network (a layer, the unit, a one-column layer), scatter-sums both kinds of message into the
  destination nodes, adds the coordinate sums to the coordinates and runs the node network.  The kernel program does
  the gathers and the scatter-sums with the same host operations and runs the edge and coordinate networks in one grid
  region over blocks of 3200 edges and the node network in a second region over blocks of 5000 nodes, its matrix
  factors passed through a narrower float format.

  At the ideal values (extended reals, exact operations, format changes the identity) the two agree entry by entry:
  every step of the three networks computes a row of its result from the same row of its operands, so running it on a
  block of rows gives the block of rows of running it on the whole array, and the blocks tile the arrays.  No
  algebraic law is needed beyond that: the sums are the same sums in the same order, and the precondition is not used.
  The frames of the two kernel programs are the generated ones; the reference's frame is its run with the results
  dropped; the idealization rewrote nothing, so there is nothing to preserve.
-/
import proofs.«181869_j44959717655304_1_alg».proof.Defs
import proofs.«181869_j44959717655304_1_alg».proof.Proof.Gen.Kernel
import proofs.«181869_j44959717655304_1_alg».proof.Proof.Gen.Kernel.Frame
import proofs.«181869_j44959717655304_1_alg».proof.Proof.Gen.KernelIdeal
import proofs.«181869_j44959717655304_1_alg».proof.Proof.Gen.KernelIdeal.Frame
import proofs.«181869_j44959717655304_1_alg».proof.Proof.Gen.ReferenceIdeal
import proofs.«181869_j44959717655304_1_alg».proof.Proof.Gen.Pre_finite_inputs
import proofs.«181869_j44959717655304_1_alg».proof.Proof.ReferenceIdealRun
import proofs.«181869_j44959717655304_1_alg».proof.Proof.KernelIdealRun
import proofs.«181869_j44959717655304_1_alg».proof.Proof.KernelIdealValue
import proofs.«181869_j44959717655304_1_alg».proof.Proof.RefValue
import Idealize.ShloMosaic.Adequacy
import Idealize.ShloMosaic.Init

set_option maxRecDepth 16384

noncomputable section

namespace Cert.Proof

open Idealize.ShloMosaic Idealize.SL.Sem

/-- The word-level kernel program runs and keeps its arguments: the generated frame. -/
theorem frame_kernel : Cert.frame_Kernel := fun m ρ _ => Cert.Kernel.Gen.frame m ρ

/-- The idealized kernel program runs and keeps its arguments: the generated frame. -/
theorem frame_kernelIdeal : Cert.frame_KernelIdeal := fun m ρ _ => Cert.KernelIdeal.Gen.frame m ρ

/-- The reference runs and keeps its arguments: its run with the results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- Both programs end with the layer's two whole-array functions of the arguments: the kernel program's results read
    through its regions and host operations, the reference's through its run, the arguments agreeing. -/
theorem algebraic : Cert.algebraic_KernelIdeal_ReferenceIdeal := by
  intro m ρ m' ρ' _ hagree
  refine ⟨_, _, (θ_run Cert.KernelIdeal.defs _ _).mono
    (fun r hr c => ⟨(hr c).1.trans (Cert.KernelIdeal.ValueLeg.v43_eq m ρ c), (hr c).2.1.trans (Cert.KernelIdeal.ValueLeg.v40_eq m ρ c), (hr c).2.2⟩)
    (Cert.KernelIdeal.Run.run_named m ρ), ?_⟩
  refine (θ_run Cert.ReferenceIdeal.defs _ _).mono (fun r hr c => ⟨(hr c).1.trans ?_, (hr c).2.1.trans ?_, (hr c).2.2⟩)
    (Cert.ReferenceIdeal.Value.run (F := Ideal) m' ρ')
  · obtain ⟨h0, h1, h2, h3, h4, h5, h6, h7, h8, h9, h10, h11, h12, h13, h14, h15⟩ := hagree c
    rw [Cert.ReferenceIdeal.RefValue.res_out0_eq m' c]
    simp only [Cert.ReferenceIdeal.RefValue.he, Cert.KernelIdeal.ValueLeg.he, h0, h1, h2, h3, h4, h5, h6, h7, h8, h9, h10, h11, h12, h13, h14, h15]
  · obtain ⟨h0, h1, h2, h3, h4, h5, h6, h7, h8, h9, h10, h11, h12, h13, h14, h15⟩ := hagree c
    rw [Cert.ReferenceIdeal.RefValue.res_out1_eq m' c]
    simp only [Cert.ReferenceIdeal.RefValue.he, Cert.KernelIdeal.ValueLeg.he, h0, h1, h2, h3, h4, h5, h6, h7, h8, h9, h10, h11, h12, h13, h14, h15]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
